-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x2048x64 : Shape := ⟨4, ![4, 8, 2048, 64]⟩
abbrev S64x64 : Shape := ⟨2, ![64, 64]⟩
abbrev S64 : Shape := ⟨1, ![64]⟩
abbrev S_ : Shape := ⟨0, ![]⟩

class Facts : Prop where
  bcast_S_S4x8x2048x64 : S_.BroadcastsInDim S4x8x2048x64 (![] : Fin 0 → Fin S4x8x2048x64.rank)
  reducesTo_S4x8x2048x64_S_d0_1_2_3 : S4x8x2048x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S4x8x2048x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) : IVec S_ 1 :=
  let main_v0 : FVec F S4x8x2048x64 .f32 := Host.absf main_arg0
  let main_cst : FVec F S_ .f32 := constant S_ .f32 0x7F800000#32
  let main_v1 : FVec F S4x8x2048x64 .f32 := broadcastInDim S4x8x2048x64 ![] bcast_S_S4x8x2048x64 main_cst
  let main_v2 : IVec S4x8x2048x64 1 := cmpf .olt main_v0 main_v1
  let main_c : IVec S_ 1 := constantI S_ 1 1#1
  let main_v3 : IVec S_ 1 := (fun x v => Host.reduce IntOp.andi x v reducesTo_S4x8x2048x64_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S4x8x2048x64 : Shape := ⟨4, ![4, 8, 2048, 64]⟩
abbrev S64x64 : Shape := ⟨2, ![64, 64]⟩
abbrev S64 : Shape := ⟨1, ![64]⟩
abbrev S32x2048x64 : Shape := ⟨3, ![32, 2048, 64]⟩
abbrev S1x2048x64 : Shape := ⟨3, ![1, 2048, 64]⟩
abbrev S1x256x64 : Shape := ⟨3, ![1, 256, 64]⟩
abbrev S2048x64 : Shape := ⟨2, ![2048, 64]⟩
abbrev S256x64 : Shape := ⟨2, ![256, 64]⟩
abbrev S1x64 : Shape := ⟨2, ![1, 64]⟩
abbrev S256x2048 : Shape := ⟨2, ![256, 2048]⟩

abbrev nBuf : Space → Nat
  | .hbm => 10
  | .vmem => 12
  | .smem => 0
  | _ => 0

abbrev bufTy : (tb : Table) → Fin (tcTables nBuf tb) → BufTy
  | .hbm, ⟨0, _⟩ => ⟨S4x8x2048x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S32x2048x64, .f32⟩
  | .hbm, ⟨8, _⟩ => ⟨S32x2048x64, .f32⟩
  | .hbm, ⟨9, _⟩ => ⟨S4x8x2048x64, .f32⟩
  | .local _ .vmem, ⟨0, _⟩ => ⟨S1x2048x64, .f32⟩
  | .local _ .vmem, ⟨1, _⟩ => ⟨S1x2048x64, .f32⟩
  | .local _ .vmem, ⟨2, _⟩ => ⟨S1x256x64, .f32⟩
  | .local _ .vmem, ⟨3, _⟩ => ⟨S1x256x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S1x256x64, .f32⟩
  | .local _ .vmem, ⟨11, _⟩ => ⟨S1x256x64, .f32⟩
  | _, _ => ⟨S4x8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S4x8x2048x64_S32x2048x64 : S4x8x2048x64.ShapeCasts S32x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S256x64 : S1x64.Broadcasts S256x64
  broadcasts_S1x64_S2048x64 : S1x64.Broadcasts S2048x64
  shapeCasts_S256x64_S1x256x64 : S256x64.ShapeCasts S1x256x64
  shapeCasts_S32x2048x64_S4x8x2048x64 : S32x2048x64.ShapeCasts S4x8x2048x64
  dot_S256x64_S64x64_S256x64_1_1_0_0_n_n_wf : DotDims.WF S256x64 S64x64 S256x64 [1] [1] [0] [0] [] []
  dot_S2048x64_S64x64_S2048x64_1_1_0_0_n_n_wf : DotDims.WF S2048x64 S64x64 S2048x64 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S32x2048x64.size a
  hwx0_0 : ∀ i : grid0.Coords, EltTy.bits .f32 = 32 ∨ (Rect.block (s := S32x2048x64) S1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x64.size a ≤ S32x2048x64.size a
  hwx0_1 : ∀ i : grid0.Coords, EltTy.bits .f32 = 32 ∨ (Rect.block (s := S32x2048x64) S1x256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x64.size a ≤ S32x2048x64.size a
  hwx0_8 : ∀ i : grid0.Coords, EltTy.bits .f32 = 32 ∨ (Rect.block (s := S32x2048x64) S1x256x64.size (cc0_transform_8 i) (hinb0_8 i)).WholeWords (EltTy.packing .f32)

variable [Facts₀]

def dot_S256x64_S64x64_S256x64_1_1_0_0_n_n : DotDims S256x64 S64x64 S256x64 where
  lhsContracting := [1]
  rhsContracting := [1]
  lhsNonContracting := [0]
  rhsNonContracting := [0]
  lhsBatch := []
  rhsBatch := []
  wf := dot_S256x64_S64x64_S256x64_1_1_0_0_n_n_wf
def dot_S2048x64_S64x64_S2048x64_1_1_0_0_n_n : DotDims S2048x64 S64x64 S2048x64 where
  lhsContracting := [1]
  rhsContracting := [1]
  lhsNonContracting := [0]
  rhsNonContracting := [0]
  lhsBatch := []
  rhsBatch := []
  wf := dot_S2048x64_S64x64_S2048x64_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x256x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x8x2048x64 : Shape := ⟨4, ![4, 8, 2048, 64]⟩
abbrev S64x64 : Shape := ⟨2, ![64, 64]⟩
abbrev S64 : Shape := ⟨1, ![64]⟩
abbrev S1x1x1x64 : Shape := ⟨4, ![1, 1, 1, 64]⟩
abbrev S4x8x2048x2048 : Shape := ⟨4, ![4, 8, 2048, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4x8x2048x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S4x8x2048x64, .f32⟩
  | .hbm, ⟨8, _⟩ => ⟨S1x1x1x64, .f32⟩
  | .hbm, ⟨9, _⟩ => ⟨S4x8x2048x64, .f32⟩
  | .hbm, ⟨10, _⟩ => ⟨S4x8x2048x64, .f32⟩
  | .hbm, ⟨11, _⟩ => ⟨S4x8x2048x64, .f32⟩
  | .hbm, ⟨12, _⟩ => ⟨S1x1x1x64, .f32⟩
  | .hbm, ⟨13, _⟩ => ⟨S4x8x2048x64, .f32⟩
  | .hbm, ⟨14, _⟩ => ⟨S4x8x2048x64, .f32⟩
  | .hbm, ⟨15, _⟩ => ⟨S4x8x2048x2048, .f32⟩
  | .hbm, ⟨16, _⟩ => ⟨S_, .f32⟩
  | .hbm, ⟨17, _⟩ => ⟨S4x8x2048x2048, .f32⟩
  | .hbm, ⟨18, _⟩ => ⟨S4x8x2048x2048, .f32⟩
  | .hbm, ⟨19, _⟩ => ⟨S4x8x2048x64, .f32⟩
  | .hbm, ⟨20, _⟩ => ⟨S4x8x2048x64, .f32⟩
  | .hbm, ⟨21, _⟩ => ⟨S1x1x1x64, .f32⟩
  | .hbm, ⟨22, _⟩ => ⟨S4x8x2048x64, .f32⟩
  | .hbm, ⟨23, _⟩ => ⟨S4x8x2048x64, .f32⟩
  | _, _ => ⟨S4x8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_cst : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S64_S1x1x1x64_3 : S64.BroadcastsInDim S1x1x1x64 (![3] : Fin 1 → Fin S1x1x1x64.rank)
  bcast_S1x1x1x64_S4x8x2048x64_0_1_2_3 : S1x1x1x64.BroadcastsInDim S4x8x2048x64 (![0, 1, 2, 3] : Fin 4 → Fin S4x8x2048x64.rank)
  bcast_S_S4x8x2048x2048 : S_.BroadcastsInDim S4x8x2048x2048 (![] : Fin 0 → Fin S4x8x2048x2048.rank)
  dot_S4x8x2048x64_S64x64_S4x8x2048x64_3_1_012_0_n_n_wf : DotDims.WF S4x8x2048x64 S64x64 S4x8x2048x64 [3] [1] [0, 1, 2] [0] [] []
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]

variable [Facts₀]

def dot_S4x8x2048x64_S64x64_S4x8x2048x64_3_1_012_0_n_n : DotDims S4x8x2048x64 S64x64 S4x8x2048x64 where
  lhsContracting := [3]
  rhsContracting := [1]
  lhsNonContracting := [0, 1, 2]
  rhsNonContracting := [0]
  lhsBatch := []
  rhsBatch := []
  wf := dot_S4x8x2048x64_S64x64_S4x8x2048x64_3_1_012_0_n_n_wf
def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf

class Facts : Prop extends Facts₀ where

variable [Facts]
-- ==== Proof.BodyBits.lean ====
/-
  The kernel's body and the pipeline's proof data, at any float instance `F`.

  The body, at a grid point (g, qi), is handed nine staging buffers: the whole graph `x[g]` (window 0), the query tile
  `x[g, 256·qi … 256·qi+255]` (window 1), the three weight matrices and three biases whole (windows 2 to 7), and the
  output tile (window 8). It loads the eight inputs whole, computes, and stores the output tile whole; it keeps nothing
  between points. So after the body every input buffer still holds its block and the output buffer holds the body's
  arithmetic (`Gen.k0_pay1 ∘ Gen.k0_pay2`) of the eight input blocks: `out8`.

  Windows 0 and 1 are two views of ONE array (the reshaped input): the proof data hold that array at the left half of
  the full share for window 0 and at the right half for window 1. Neither window is ever written, so half a share each
  is all the pipeline needs of it.
-/
import proofs.«176366_j30863634989345_1_alg».proof.Proof.Gen.Kernel.Launch
import proofs.«176366_j30863634989345_1_alg».proof.Proof.Gen.Kernel.Skeleton
import proofs.«176366_j30863634989345_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation of the host operations; -/
abbrev V₀ (c : Dev nD) : Valuation τ sig (Elt F) := fun b => m (c, b)
/-- and when the region is entered: the input has been reshaped to [32, 2048, 64]. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every buffer whole -/

abbrev rG : Rect S1x2048x64 := Rect.unit (s := S1x2048x64) ![0, 0, 0] S1x2048x64.size inb_S1x2048x64_S1x2048x64_0_0_0
abbrev rT : Rect S1x256x64 := Rect.unit (s := S1x256x64) ![0, 0, 0] S1x256x64.size inb_S1x256x64_S1x256x64_0_0_0
abbrev rW : Rect S64x64 := Rect.unit (s := S64x64) ![0, 0] S64x64.size inb_S64x64_S64x64_0_0
abbrev rB : Rect S64 := Rect.unit (s := S64) ![0] S64.size inb_S64_S64_0

/-- The output tile's buffer after the body, from the eight input blocks: its one store, of the body's arithmetic on the
    loaded blocks. -/
def out8 (x0 : Vec F S1x2048x64 .f32) (x1 : Vec F S1x256x64 .f32) (x2 : Vec F S64x64 .f32) (x3 : Vec F S64 .f32)
    (x4 : Vec F S64x64 .f32) (x5 : Vec F S64 .f32) (x6 : Vec F S64x64 .f32) (x7 : Vec F S64 .f32) : Vec F S1x256x64 .f32 :=
  View.canon [⟨rT, k0_pay1 (k0_pay2 (View.ld x0 rG) (View.ld x1 rT) (View.ld x2 rW) (View.ld x4 rW) (View.ld x6 rW) (View.ld x3 rB) (View.ld x5 rB) (View.ld x7 rB))⟩]

/-- The one store covers the tile. -/
theorem cover8 (p0 : Vec F S1x256x64 .f32) (y : S1x256x64.Idx) :
    ∃ pc ∈ ([⟨rT, p0⟩] : List (View.Piece (Elt F) S1x256x64 .f32)), y ∈ pc.1.set :=
  View.cover_of_tiled [⟨rT, p0⟩] S1x256x64.size (by rfl) y

/-! ## The body's triple -/

set_option maxHeartbeats 2000000 in
/-- The body on whole staging memrefs, the eight inputs' at contents `x0 … x7` and the output's at anything, runs to the
    continuation holding the inputs' as they were and the output's at `out8` of them. -/
theorem sound_kernel (c : Dev nD) (E : Set ℕ) (i : grid0.Coords)
    (arg2 : Memref sig .tc .vmem S1x2048x64 .f32) (harg2 : arg2.IsWhole) (arg3 : Memref sig .tc .vmem S1x256x64 .f32) (harg3 : arg3.IsWhole)
    (arg4 : Memref sig .tc .vmem S64x64 .f32) (harg4 : arg4.IsWhole) (arg5 : Memref sig .tc .vmem S64 .f32) (harg5 : arg5.IsWhole)
    (arg6 : Memref sig .tc .vmem S64x64 .f32) (harg6 : arg6.IsWhole) (arg7 : Memref sig .tc .vmem S64 .f32) (harg7 : arg7.IsWhole)
    (arg8 : Memref sig .tc .vmem S64x64 .f32) (harg8 : arg8.IsWhole) (arg9 : Memref sig .tc .vmem S64 .f32) (harg9 : arg9.IsWhole)
    (arg10 : Memref sig .tc .vmem S1x256x64 .f32) (harg10 : arg10.IsWhole)
    (x0 : Vec F S1x2048x64 .f32) (x1 : Vec F S1x256x64 .f32) (x2 : Vec F S64x64 .f32) (x3 : Vec F S64 .f32)
    (x4 : Vec F S64x64 .f32) (x5 : Vec F S64 .f32) (x6 : Vec F S64x64 .f32) (x7 : Vec F S64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out8 x0 x1 x2 x3 x4 x5 x6 x7)) -∗ K ⟨⟩))
      ⊢ wp frame (wpE (defs₀ (F := F)) Variants.none c none) E
          (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover8 _)

/-! ## The pipeline's proof data -/

/-- The proof data of the one pipeline on core `c`: the arrays as the region finds them; after the body at point `t` each
    input's buffer at its block and the output's at `out8` of the input blocks; the invariant is the core's scoped buffers that are no staging buffer (there are none), untouched; nothing owed; the array that windows 0 and 1 share held at one half of the full
    share by each, every other input array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out8 (iblk m c 0 t) (iblk m c 1 t) (iblk m c 2 t) (iblk m c 3 t) (iblk m c 4 t) (iblk m c 5 t) (iblk m c 6 t) (iblk m c 7 t) := by dsimp only [dats]

/-- Input window 0's current staging buffer holds its block at every point, fetched there or not: the window is never
    idle and never cut, and the body leaves the block in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
/-- Input window 1's current staging buffer holds its block at every point, fetched there or not: the window is never
    idle and never cut, and the body leaves the block in place. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
/-- Input window 2's current staging buffer holds its block at every point, fetched there or not: the window is never
    idle and never cut, and the body leaves the block in place. -/
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
/-- Input window 3's current staging buffer holds its block at every point, fetched there or not: the window is never
    idle and never cut, and the body leaves the block in place. -/
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
/-- Input window 4's current staging buffer holds its block at every point, fetched there or not: the window is never
    idle and never cut, and the body leaves the block in place. -/
theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)
/-- Input window 5's current staging buffer holds its block at every point, fetched there or not: the window is never
    idle and never cut, and the body leaves the block in place. -/
theorem before0_5 (c : Dev nD) (t : Fin cfg0.N) (d) : (dats m 0 c).before 5 t d = iblk m c 5 t :=
  ((dats m 0 c).before_in_eq_fetched 5 rfl (fun _ => rfl) (fun _ _ _ => rfl)
      (fun t => by rw [after0_5]; unfold Dat.blockOf iblk; rw [A_eq]; try rfl) t d).trans
    (by unfold Dat.fetched Dat.blockOf iblk; rw [A_eq]; try rfl)
/-- Input window 6's current staging buffer holds its block at every point, fetched there or not: the window is never
    idle and never cut, and the body leaves the block in place. -/
theorem before0_6 (c : Dev nD) (t : Fin cfg0.N) (d) : (dats m 0 c).before 6 t d = iblk m c 6 t :=
  ((dats m 0 c).before_in_eq_fetched 6 rfl (fun _ => rfl) (fun _ _ _ => rfl)
      (fun t => by rw [after0_6]; unfold Dat.blockOf iblk; rw [A_eq]; try rfl) t d).trans
    (by unfold Dat.fetched Dat.blockOf iblk; rw [A_eq]; try rfl)
/-- Input window 7's current staging buffer holds its block at every point, fetched there or not: the window is never
    idle and never cut, and the body leaves the block in place. -/
theorem before0_7 (c : Dev nD) (t : Fin cfg0.N) (d) : (dats m 0 c).before 7 t d = iblk m c 7 t :=
  ((dats m 0 c).before_in_eq_fetched 7 rfl (fun _ => rfl) (fun _ _ _ => rfl)
      (fun t => by rw [after0_7]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so `sound_kernel` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.LaunchBits.lean ====
/-
  The run of the whole program, at any float instance `F`.

  @main is three items: the input reshaped from [4, 8, 2048, 64] to [32, 2048, 64]; the kernel region over the grid
  32 × 8; the result reshaped back from [32, 2048, 64] to [4, 8, 2048, 64]. Between two items the core holds every
  unscoped buffer whole at a valuation: the launch contents, then those after the first reshape, then those with the
  region's result array at what the write-backs leave in it, then those after the second reshape.

  The region reads the reshaped input through TWO windows (the whole graph, and the query tile). At the region's entry
  that array's full share is cut in two halves, one per window; at its exit both windows still hold the array at its
  entry contents (an input array is never written), and the halves are put together again. Every other array of the
  region belongs to one window and is held at the full share throughout.
-/
import proofs.«176366_j30863634989345_1_alg».proof.Proof.BodyBits
import Idealize.ShloMosaic.Lib.Pipeline.Regions

set_option maxRecDepth 16384

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array after the region: what the write-backs of all 256 points leave in it. -/
abbrev res (c : Dev nD) : Buf (Elt F) ((cfg0.win 8).arr.view.loc (c : Thread nD τ)) := (dats m 0 c).arrAt 8 cfg0.N

/-- Core `c`'s buffers when the region is left: as it was entered, the result array at `res`. -/
abbrev V₁ (c : Dev nD) : Valuation τ sig (Elt F) :=
  Function.update (StableHlo.after hostOps0 (V₀ m c)) (Proc.devRef .tc main_v1) (res m c)

/-! ## The region's arrays: their buffers one by one, and the shares the windows hold them at -/

/-- The distinct buffers behind the nine windows' arrays are eight: the reshaped input (windows 0 and 1), the six
    parameters, the result. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0)
        ∗ (((c : Thread nD τ).loc main_arg1) ↦{fullShare} W main_arg1)
        ∗ (((c : Thread nD τ).loc main_arg2) ↦{fullShare} W main_arg2)
        ∗ (((c : Thread nD τ).loc main_arg3) ↦{fullShare} W main_arg3)
        ∗ (((c : Thread nD τ).loc main_arg4) ↦{fullShare} W main_arg4)
        ∗ (((c : Thread nD τ).loc main_arg5) ↦{fullShare} W main_arg5)
        ∗ (((c : Thread nD τ).loc main_arg6) ↦{fullShare} W main_arg6)
        ∗ (((c : Thread nD τ).loc main_v1) ↦{fullShare} W main_v1)) := by
  unfold Pipeline.arrBufs
  exact bigSep_eq_bigSepL_of_eq [main_v0, main_arg1, main_arg2, main_arg3, main_arg4, main_arg5, main_arg6, main_v1] (by decide) (by decide) _

/-- The proof data's arrays at contents `G`, window by window: the reshaped input at the left half of the full share
    for window 0 and at the right half for window 1, every other array at the full share. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_v0) ↦{fullShare.left} G 0)
        ∗ (((c : Thread nD τ).loc main_v0) ↦{fullShare.right} G 1)
        ∗ (((c : Thread nD τ).loc main_arg1) ↦{fullShare} G 2)
        ∗ (((c : Thread nD τ).loc main_arg2) ↦{fullShare} G 3)
        ∗ (((c : Thread nD τ).loc main_arg3) ↦{fullShare} G 4)
        ∗ (((c : Thread nD τ).loc main_arg4) ↦{fullShare} G 5)
        ∗ (((c : Thread nD τ).loc main_arg5) ↦{fullShare} G 6)
        ∗ (((c : Thread nD τ).loc main_arg6) ↦{fullShare} G 7)
        ∗ (((c : Thread nD τ).loc main_v1) ↦{fullShare} G 8)) := by
  have h : ((dats m 0 c).arrays G : sProp 𝕄)
      = bigSep Finset.univ fun w : Fin cfg0.W => ((((c : Thread nD τ).loc (Pipeline.arrRef spec0 w)) ↦{(dats m 0 c).share w} G w) : sProp 𝕄) := by
    unfold Dat.arrays
    exact bigSep_congr fun w _ => by rw [(arr_whole0 w).set_eq_univ]
  rw [h, bigSep_W0]
  rfl

/-- A buffer whole at the full share is the same buffer at the two halves of it, -/
theorem split_half (ℓ : Loc nD τ sig) (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1
/-- and back. -/
theorem join_half (ℓ : Loc nD τ sig) (f : Buf (Elt F) ℓ) :
    iprop((ℓ ↦{fullShare.left} f) ∗ ℓ ↦{fullShare.right} f) ⊢ (ℓ ↦{fullShare} f : sProp 𝕄) :=
  (pointsTo_share (PosShare.mem_left_op_right fullShare)).2

/-- ENTRY: the arrays' buffers, each whole at the full share at the entry contents, are the proof data's arrays at
    entry: the reshaped input's full share cut into the two halves windows 0 and 1 hold it at. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq, arrays0_eq]
  iintro ⟨H0, H1, H2, H3, H4, H5, H6, H8⟩
  ihave Hs := (split_half ((c : Thread nD τ).loc main_v0) (V m c main_v0)) $$ H0
  icases Hs with ⟨Hl, Hr⟩
  isplitl [Hl]; · iexact Hl
  isplitl [Hr]; · iexact Hr
  isplitl [H1]; · iexact H1
  isplitl [H2]; · iexact H2
  isplitl [H3]; · iexact H3
  isplitl [H4]; · iexact H4
  isplitl [H5]; · iexact H5
  isplitl [H6]; · iexact H6
  iexact H8

/-- EXIT: the proof data's arrays after the last point are the arrays' buffers whole at the exit contents `V₁`: an input
    array holds what it held at entry, so the two halves of the reshaped input join again; the result array holds
    `res`. -/
theorem arrays_exit (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => V₁ m c b) := by
  rw [arrBufs0_eq, arrays0_eq]
  rw [(dats m 0 c).arrAt_in 0 rfl, (dats m 0 c).arrAt_in 1 rfl, (dats m 0 c).arrAt_in 2 rfl, (dats m 0 c).arrAt_in 3 rfl,
    (dats m 0 c).arrAt_in 4 rfl, (dats m 0 c).arrAt_in 5 rfl, (dats m 0 c).arrAt_in 6 rfl, (dats m 0 c).arrAt_in 7 rfl]
  iintro ⟨Hl, Hr, H1, H2, H3, H4, H5, H6, H8⟩
  ihave H0 := (join_half ((c : Thread nD τ).loc main_v0) ((dats m 0 c).A 0)) $$ [Hl Hr]
  · isplitl [Hl]; · iexact Hl
    iexact Hr
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H8

/-! ## What the two reshapes leave alone -/

/-- The first reshape writes the reshaped input only; -/
theorem keep0 (b : Ref sig .tc) (hb : b ≠ main_v0) (W : Valuation τ sig (Elt F)) : StableHlo.after hostOps0 W b = W b :=
  StableHlo.after_of_forall_not_mem (b := Proc.devRef .tc b) hostOps0 W (fun op hop => by
    rw [List.mem_singleton] at hop; subst hop
    rw [StableHlo.reshape_writes, Finset.mem_singleton]; exact StableHlo.devRef_ne_of_ne hb)
/-- the second writes the program's result only. -/
theorem keep1 (b : Ref sig .tc) (hb : b ≠ main_v2) (W : Valuation τ sig (Elt F)) : StableHlo.after hostOps1 W b = W b :=
  StableHlo.after_of_forall_not_mem (b := Proc.devRef .tc b) hostOps1 W (fun op hop => by
    rw [List.mem_singleton] at hop; subst hop
    rw [StableHlo.reshape_writes, Finset.mem_singleton]; exact StableHlo.devRef_ne_of_ne hb)

/-- A buffer that is neither reshape's result nor the region's result ends as launched. -/
theorem kept (c : Dev nD) (b : Ref sig .tc) (h0 : b ≠ main_v0) (h1 : b ≠ main_v1) (h2 : b ≠ main_v2) :
    StableHlo.after hostOps1 (V₁ m c) b = m ((c : Thread nD τ).loc b) :=
  (keep1 b h2 _).trans ((Function.update_of_ne (StableHlo.devRef_ne_of_ne h1) _ _).trans (keep0 b h0 _))

/-! ## The segments -/

abbrev 𝒱₀ : Variants := Variants.none
/-- No core owes another anything: no level is assigned. -/
abbrev Lz : GSem nD τ sig → Finset Unit := fun _ => ∅
abbrev lvz : GSem nD τ sig → Unit → ℕ := fun _ _ => 0
/-- The prefetched tables' admissible contents: no table. -/
abbrev adm : (p : Fin 1) → (pcfgs (F := F) p).Adm := fun p => (cfgs p).toPCfg_adm
/-- The pipeline library's algebra is the whole of the certificate's. -/
abbrev EP : Emb (UR sig nD τ) (MT nD τ sig Unit (Elt F) ℕ (UR sig nD τ) ℕ) := emb₁

/-- What rides beside the buffers from item to item: the core owing nothing. -/
abbrev R (c : Dev nD) : sProp 𝕄 := iprop(∃ W, owes (c : Thread nD τ) (0 : CellTallies nD τ sig Unit) W)

theorem hostOps0_fresh : ∀ op ∈ (hostOps0 (F := F)), op.fresh = ∅ := by
  intro _ h; (repeat (cases h with | head => rfl | tail _ h => ?_)); exact nomatch h
theorem hostOps1_fresh : ∀ op ∈ (hostOps1 (F := F)), op.fresh = ∅ := by
  intro _ h; (repeat (cases h with | head => rfl | tail _ h => ?_)); exact nomatch h

/-- The first reshape, over the unscoped buffers at the launch contents. -/
def seg0 : Pipeline.HostSeg (Name := ℕ) (U := UR sig nD τ) (pcfgs (F := F)) defs₀ 𝒱₀ Lz lvz :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- The second reshape, over the unscoped buffers as the region left them. -/
def seg1 : Pipeline.HostSeg (Name := ℕ) (U := UR sig nD τ) (pcfgs (F := F)) defs₀ 𝒱₀ Lz lvz :=
  Pipeline.HostSeg.ofOps _ _ _ _ _ (Pipeline.ucRefs τ sig) hostOps1
    (fun op h => Pipeline.sub_ucRefs op ((List.forall_iff_forall_mem.mp hostOps1_sub) op h)) hostOps1_fresh (V₁ m) R

set_option backward.isDefEq.respectTransparency.types false in
/-- The region: entered holding every unscoped buffer as the first reshape left it — the windows' arrays go to the
    pipeline (the reshaped input cut in two halves), the input as given and the program's result buffer bypass —, left
    holding every unscoped buffer at `V₁`. -/
def reg0 : Pipeline.RegionSeg (pcfgs (F := F)) adm (dats m) () defs₀ 𝒱₀ Lz lvz 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lz lvz 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V₁ m c) ∗ R c)
  X c := iprop(emp)
  Y c := iprop(emp)
  Z c := iprop((((c : Thread nD τ).loc main_arg0) ↦{fullShare} V m c main_arg0) ∗ (((c : Thread nD τ).loc main_v2) ↦{fullShare} V m c main_v2))
  hentry c := by
    rw [show StableHlo.held (c : Thread nD τ) (Pipeline.ucRefs τ sig) (StableHlo.after hostOps0 (V₀ m c)) = unscopedBufs c (V m c) from (Pipeline.unscopedBufs_held c _).symm,
      Pipeline.ownSems0_none, Pipeline.unscopedBufs_split₀ cfgs 0 winFacts₀0.arr_unscoped c (V m c), unscopedRest0_eq]
    iintro ⟨⟨⟨Harr, Hrest⟩, HO⟩, -, -⟩
    imodintro
    isplitl [Harr]; · iapply (arrays_entry m c); iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last (Pipeline.pin (pcfgs (F := F)) adm 0).N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [show StableHlo.held (c : Thread nD τ) (Pipeline.ucRefs τ sig) (V₁ m c) = unscopedBufs c (fun b => V₁ m c b) from (Pipeline.unscopedBufs_held c _).symm,
      Pipeline.unscopedBufs_split₀ cfgs 0 winFacts₀0.arr_unscoped c (fun b => V₁ m c b), unscopedRest0_eq,
      show V₁ m c main_arg0 = V m c main_arg0 from Function.update_of_ne (StableHlo.devRef_ne_of_ne (by decide)) _ _,
      show V₁ m c main_v2 = V m c main_v2 from Function.update_of_ne (StableHlo.devRef_ne_of_ne (by decide)) _ _]
    iintro ⟨Ha, HO, -, HZ⟩
    imodintro
    isplitr [HO]
    · isplitl [Ha]; · iapply (arrays_exit m c); iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ Lz lvz) := [.host (seg0 m), .region (reg0 m), .host (seg1 m)]

/-! ## The run -/

/-- Where the program ends: the result buffer holds the second reshape of the region's result array `res`, and every
    argument is as launched. -/
def QC : PUnit × MemSt nD τ sig (Elt F) → Prop := fun r => ∀ c : Dev nD,
  r.2.mem ((c : Thread nD τ).loc main_v2) = StableHlo.after hostOps1 (V₁ m c) main_v2
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)

set_option backward.isDefEq.respectTransparency.types false in
/-- At the compiled mesh, for any float values, from any memory with zero counters: every weakly fair execution of @main
    on the TensorCores terminates, nothing faulting, in a state satisfying `QC`. -/
theorem run_main : θ_run defs (onTc (τ := τ) (main (F := F))) (s₀ m ρ) (QC m) :=
  Pipeline.θ_run_regions_kit (pcfgs (F := F)) adm (dats m) () cellOf_inj EP defs₀ 𝒱₀ Lz lvz m ρ main (segs m)
    (fun c Q => by rw [main_segs adm (dats m) () 𝒱₀ Lz lvz (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (StableHlo.after hostOps1 (V₁ m c)))
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ (Finset.univ.filter fun b : Ref sig .tc => ¬ b.isScoped), s.mem ((c : Thread nD τ).loc b) = StableHlo.after hostOps1 (V₁ m c) b)
    (hfin := fun c s' => by
      rw [show StableHlo.held (c : Thread nD τ) (Pipeline.ucRefs τ sig) (StableHlo.after hostOps1 (V₁ m c))
        = unscopedBufs c (fun b => StableHlo.after hostOps1 (V₁ m c) b) from (Pipeline.unscopedBufs_held c _).symm]
      unfold unscopedBufs
      iintro ⟨Hb, HSI⟩
      imodintro
      iapply (pointsTo_read_all (Finset.univ.filter fun b : Ref sig .tc => ¬ b.isScoped) (fun b => (c : Thread nD τ).loc b)
        (fun b => StableHlo.after hostOps1 (V₁ m c) b) s')
      isplitl [Hb] <;> iassumption)
    (hQ := fun s h c => ⟨h c main_v2 (by decide),
      (h c main_arg0 (by decide)).trans (kept m c main_arg0 (by decide) (by decide) (by decide)),
      (h c main_arg1 (by decide)).trans (kept m c main_arg1 (by decide) (by decide) (by decide)),
      (h c main_arg2 (by decide)).trans (kept m c main_arg2 (by decide) (by decide) (by decide)),
      (h c main_arg3 (by decide)).trans (kept m c main_arg3 (by decide) (by decide) (by decide)),
      (h c main_arg4 (by decide)).trans (kept m c main_arg4 (by decide) (by decide) (by decide)),
      (h c main_arg5 (by decide)).trans (kept m c main_arg5 (by decide) (by decide) (by decide)),
      (h c main_arg6 (by decide)).trans (kept m c main_arg6 (by decide) (by decide) (by decide))⟩)

end Cert.Kernel.Fr

end
-- ==== Proof.BodyIdeal.lean ====
/-
  The kernel's body and the pipeline's proof data, at any float instance `F`.

  The body, at a grid point (g, qi), is handed nine staging buffers: the whole graph `x[g]` (window 0), the query tile
  `x[g, 256·qi … 256·qi+255]` (window 1), the three weight matrices and three biases whole (windows 2 to 7), and the
  output tile (window 8). It loads the eight inputs whole, computes, and stores the output tile whole; it keeps nothing
  between points. So after the body every input buffer still holds its block and the output buffer holds the body's
  arithmetic (`Gen.k0_pay1 ∘ Gen.k0_pay2`) of the eight input blocks: `out8`.

  Windows 0 and 1 are two views of ONE array (the reshaped input): the proof data hold that array at the left half of
  the full share for window 0 and at the right half for window 1. Neither window is ever written, so half a share each
  is all the pipeline needs of it.
-/
import proofs.«176366_j30863634989345_1_alg».proof.Proof.Gen.KernelIdeal.Launch
import proofs.«176366_j30863634989345_1_alg».proof.Proof.Gen.KernelIdeal.Skeleton
import proofs.«176366_j30863634989345_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation of the host operations; -/
abbrev V₀ (c : Dev nD) : Valuation τ sig (Elt F) := fun b => m (c, b)
/-- and when the region is entered: the input has been reshaped to [32, 2048, 64]. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every buffer whole -/

abbrev rG : Rect S1x2048x64 := Rect.unit (s := S1x2048x64) ![0, 0, 0] S1x2048x64.size inb_S1x2048x64_S1x2048x64_0_0_0
abbrev rT : Rect S1x256x64 := Rect.unit (s := S1x256x64) ![0, 0, 0] S1x256x64.size inb_S1x256x64_S1x256x64_0_0_0
abbrev rW : Rect S64x64 := Rect.unit (s := S64x64) ![0, 0] S64x64.size inb_S64x64_S64x64_0_0
abbrev rB : Rect S64 := Rect.unit (s := S64) ![0] S64.size inb_S64_S64_0

/-- The output tile's buffer after the body, from the eight input blocks: its one store, of the body's arithmetic on the
    loaded blocks. -/
def out8 (x0 : Vec F S1x2048x64 .f32) (x1 : Vec F S1x256x64 .f32) (x2 : Vec F S64x64 .f32) (x3 : Vec F S64 .f32)
    (x4 : Vec F S64x64 .f32) (x5 : Vec F S64 .f32) (x6 : Vec F S64x64 .f32) (x7 : Vec F S64 .f32) : Vec F S1x256x64 .f32 :=
  View.canon [⟨rT, k0_pay1 (k0_pay2 (View.ld x0 rG) (View.ld x1 rT) (View.ld x2 rW) (View.ld x4 rW) (View.ld x6 rW) (View.ld x3 rB) (View.ld x5 rB) (View.ld x7 rB))⟩]

/-- The one store covers the tile. -/
theorem cover8 (p0 : Vec F S1x256x64 .f32) (y : S1x256x64.Idx) :
    ∃ pc ∈ ([⟨rT, p0⟩] : List (View.Piece (Elt F) S1x256x64 .f32)), y ∈ pc.1.set :=
  View.cover_of_tiled [⟨rT, p0⟩] S1x256x64.size (by rfl) y

/-! ## The body's triple -/

set_option maxHeartbeats 2000000 in
/-- The body on whole staging memrefs, the eight inputs' at contents `x0 … x7` and the output's at anything, runs to the
    continuation holding the inputs' as they were and the output's at `out8` of them. -/
theorem sound_kernel (c : Dev nD) (E : Set ℕ) (i : grid0.Coords)
    (arg2 : Memref sig .tc .vmem S1x2048x64 .f32) (harg2 : arg2.IsWhole) (arg3 : Memref sig .tc .vmem S1x256x64 .f32) (harg3 : arg3.IsWhole)
    (arg4 : Memref sig .tc .vmem S64x64 .f32) (harg4 : arg4.IsWhole) (arg5 : Memref sig .tc .vmem S64 .f32) (harg5 : arg5.IsWhole)
    (arg6 : Memref sig .tc .vmem S64x64 .f32) (harg6 : arg6.IsWhole) (arg7 : Memref sig .tc .vmem S64 .f32) (harg7 : arg7.IsWhole)
    (arg8 : Memref sig .tc .vmem S64x64 .f32) (harg8 : arg8.IsWhole) (arg9 : Memref sig .tc .vmem S64 .f32) (harg9 : arg9.IsWhole)
    (arg10 : Memref sig .tc .vmem S1x256x64 .f32) (harg10 : arg10.IsWhole)
    (x0 : Vec F S1x2048x64 .f32) (x1 : Vec F S1x256x64 .f32) (x2 : Vec F S64x64 .f32) (x3 : Vec F S64 .f32)
    (x4 : Vec F S64x64 .f32) (x5 : Vec F S64 .f32) (x6 : Vec F S64x64 .f32) (x7 : Vec F S64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (out8 x0 x1 x2 x3 x4 x5 x6 x7)) -∗ K ⟨⟩))
      ⊢ wp frame (wpE (defs₀ (F := F)) Variants.none c none) E
          (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover8 _)

/-! ## The pipeline's proof data -/

/-- The proof data of the one pipeline on core `c`: the arrays as the region finds them; after the body at point `t` each
    input's buffer at its block and the output's at `out8` of the input blocks; the invariant is the core's scoped buffers that are no staging buffer (there are none), untouched; nothing owed; the array that windows 0 and 1 share held at one half of the full
    share by each, every other input array at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = out8 (iblk m c 0 t) (iblk m c 1 t) (iblk m c 2 t) (iblk m c 3 t) (iblk m c 4 t) (iblk m c 5 t) (iblk m c 6 t) (iblk m c 7 t) := by dsimp only [dats]

/-- Input window 0's current staging buffer holds its block at every point, fetched there or not: the window is never
    idle and never cut, and the body leaves the block in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
/-- Input window 1's current staging buffer holds its block at every point, fetched there or not: the window is never
    idle and never cut, and the body leaves the block in place. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
/-- Input window 2's current staging buffer holds its block at every point, fetched there or not: the window is never
    idle and never cut, and the body leaves the block in place. -/
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
/-- Input window 3's current staging buffer holds its block at every point, fetched there or not: the window is never
    idle and never cut, and the body leaves the block in place. -/
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
/-- Input window 4's current staging buffer holds its block at every point, fetched there or not: the window is never
    idle and never cut, and the body leaves the block in place. -/
theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)
/-- Input window 5's current staging buffer holds its block at every point, fetched there or not: the window is never
    idle and never cut, and the body leaves the block in place. -/
theorem before0_5 (c : Dev nD) (t : Fin cfg0.N) (d) : (dats m 0 c).before 5 t d = iblk m c 5 t :=
  ((dats m 0 c).before_in_eq_fetched 5 rfl (fun _ => rfl) (fun _ _ _ => rfl)
      (fun t => by rw [after0_5]; unfold Dat.blockOf iblk; rw [A_eq]; try rfl) t d).trans
    (by unfold Dat.fetched Dat.blockOf iblk; rw [A_eq]; try rfl)
/-- Input window 6's current staging buffer holds its block at every point, fetched there or not: the window is never
    idle and never cut, and the body leaves the block in place. -/
theorem before0_6 (c : Dev nD) (t : Fin cfg0.N) (d) : (dats m 0 c).before 6 t d = iblk m c 6 t :=
  ((dats m 0 c).before_in_eq_fetched 6 rfl (fun _ => rfl) (fun _ _ _ => rfl)
      (fun t => by rw [after0_6]; unfold Dat.blockOf iblk; rw [A_eq]; try rfl) t d).trans
    (by unfold Dat.fetched Dat.blockOf iblk; rw [A_eq]; try rfl)
/-- Input window 7's current staging buffer holds its block at every point, fetched there or not: the window is never
    idle and never cut, and the body leaves the block in place. -/
theorem before0_7 (c : Dev nD) (t : Fin cfg0.N) (d) : (dats m 0 c).before 7 t d = iblk m c 7 t :=
  ((dats m 0 c).before_in_eq_fetched 7 rfl (fun _ => rfl) (fun _ _ _ => rfl)
      (fun t => by rw [after0_7]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so `sound_kernel` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.LaunchIdeal.lean ====
/-
  The run of the whole program, at any float instance `F`.

  @main is three items: the input reshaped from [4, 8, 2048, 64] to [32, 2048, 64]; the kernel region over the grid
  32 × 8; the result reshaped back from [32, 2048, 64] to [4, 8, 2048, 64]. Between two items the core holds every
  unscoped buffer whole at a valuation: the launch contents, then those after the first reshape, then those with the
  region's result array at what the write-backs leave in it, then those after the second reshape.

  The region reads the reshaped input through TWO windows (the whole graph, and the query tile). At the region's entry
  that array's full share is cut in two halves, one per window; at its exit both windows still hold the array at its
  entry contents (an input array is never written), and the halves are put together again. Every other array of the
  region belongs to one window and is held at the full share throughout.
-/
import proofs.«176366_j30863634989345_1_alg».proof.Proof.BodyIdeal
import Idealize.ShloMosaic.Lib.Pipeline.Regions

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array after the region: what the write-backs of all 256 points leave in it. -/
abbrev res (c : Dev nD) : Buf (Elt F) ((cfg0.win 8).arr.view.loc (c : Thread nD τ)) := (dats m 0 c).arrAt 8 cfg0.N

/-- Core `c`'s buffers when the region is left: as it was entered, the result array at `res`. -/
abbrev V₁ (c : Dev nD) : Valuation τ sig (Elt F) :=
  Function.update (StableHlo.after hostOps0 (V₀ m c)) (Proc.devRef .tc main_v1) (res m c)

/-! ## The region's arrays: their buffers one by one, and the shares the windows hold them at -/

/-- The distinct buffers behind the nine windows' arrays are eight: the reshaped input (windows 0 and 1), the six
    parameters, the result. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0)
        ∗ (((c : Thread nD τ).loc main_arg1) ↦{fullShare} W main_arg1)
        ∗ (((c : Thread nD τ).loc main_arg2) ↦{fullShare} W main_arg2)
        ∗ (((c : Thread nD τ).loc main_arg3) ↦{fullShare} W main_arg3)
        ∗ (((c : Thread nD τ).loc main_arg4) ↦{fullShare} W main_arg4)
        ∗ (((c : Thread nD τ).loc main_arg5) ↦{fullShare} W main_arg5)
        ∗ (((c : Thread nD τ).loc main_arg6) ↦{fullShare} W main_arg6)
        ∗ (((c : Thread nD τ).loc main_v1) ↦{fullShare} W main_v1)) := by
  unfold Pipeline.arrBufs
  exact bigSep_eq_bigSepL_of_eq [main_v0, main_arg1, main_arg2, main_arg3, main_arg4, main_arg5, main_arg6, main_v1] (by decide) (by decide) _

/-- The proof data's arrays at contents `G`, window by window: the reshaped input at the left half of the full share
    for window 0 and at the right half for window 1, every other array at the full share. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_v0) ↦{fullShare.left} G 0)
        ∗ (((c : Thread nD τ).loc main_v0) ↦{fullShare.right} G 1)
        ∗ (((c : Thread nD τ).loc main_arg1) ↦{fullShare} G 2)
        ∗ (((c : Thread nD τ).loc main_arg2) ↦{fullShare} G 3)
        ∗ (((c : Thread nD τ).loc main_arg3) ↦{fullShare} G 4)
        ∗ (((c : Thread nD τ).loc main_arg4) ↦{fullShare} G 5)
        ∗ (((c : Thread nD τ).loc main_arg5) ↦{fullShare} G 6)
        ∗ (((c : Thread nD τ).loc main_arg6) ↦{fullShare} G 7)
        ∗ (((c : Thread nD τ).loc main_v1) ↦{fullShare} G 8)) := by
  have h : ((dats m 0 c).arrays G : sProp 𝕄)
      = bigSep Finset.univ fun w : Fin cfg0.W => ((((c : Thread nD τ).loc (Pipeline.arrRef spec0 w)) ↦{(dats m 0 c).share w} G w) : sProp 𝕄) := by
    unfold Dat.arrays
    exact bigSep_congr fun w _ => by rw [(arr_whole0 w).set_eq_univ]
  rw [h, bigSep_W0]
  rfl

/-- A buffer whole at the full share is the same buffer at the two halves of it, -/
theorem split_half (ℓ : Loc nD τ sig) (f : Buf (Elt F) ℓ) :
    (ℓ ↦{fullShare} f : sProp 𝕄) ⊢ iprop((ℓ ↦{fullShare.left} f) ∗ ℓ ↦{fullShare.right} f) :=
  (pointsTo_share (PosShare.mem_left_op_right fullShare)).1
/-- and back. -/
theorem join_half (ℓ : Loc nD τ sig) (f : Buf (Elt F) ℓ) :
    iprop((ℓ ↦{fullShare.left} f) ∗ ℓ ↦{fullShare.right} f) ⊢ (ℓ ↦{fullShare} f : sProp 𝕄) :=
  (pointsTo_share (PosShare.mem_left_op_right fullShare)).2

/-- ENTRY: the arrays' buffers, each whole at the full share at the entry contents, are the proof data's arrays at
    entry: the reshaped input's full share cut into the two halves windows 0 and 1 hold it at. -/
theorem arrays_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq, arrays0_eq]
  iintro ⟨H0, H1, H2, H3, H4, H5, H6, H8⟩
  ihave Hs := (split_half ((c : Thread nD τ).loc main_v0) (V m c main_v0)) $$ H0
  icases Hs with ⟨Hl, Hr⟩
  isplitl [Hl]; · iexact Hl
  isplitl [Hr]; · iexact Hr
  isplitl [H1]; · iexact H1
  isplitl [H2]; · iexact H2
  isplitl [H3]; · iexact H3
  isplitl [H4]; · iexact H4
  isplitl [H5]; · iexact H5
  isplitl [H6]; · iexact H6
  iexact H8

/-- EXIT: the proof data's arrays after the last point are the arrays' buffers whole at the exit contents `V₁`: an input
    array holds what it held at entry, so the two halves of the reshaped input join again; the result array holds
    `res`. -/
theorem arrays_exit (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => V₁ m c b) := by
  rw [arrBufs0_eq, arrays0_eq]
  rw [(dats m 0 c).arrAt_in 0 rfl, (dats m 0 c).arrAt_in 1 rfl, (dats m 0 c).arrAt_in 2 rfl, (dats m 0 c).arrAt_in 3 rfl,
    (dats m 0 c).arrAt_in 4 rfl, (dats m 0 c).arrAt_in 5 rfl, (dats m 0 c).arrAt_in 6 rfl, (dats m 0 c).arrAt_in 7 rfl]
  iintro ⟨Hl, Hr, H1, H2, H3, H4, H5, H6, H8⟩
  ihave H0 := (join_half ((c : Thread nD τ).loc main_v0) ((dats m 0 c).A 0)) $$ [Hl Hr]
  · isplitl [Hl]; · iexact Hl
    iexact Hr
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H8

/-! ## What the two reshapes leave alone -/

/-- The first reshape writes the reshaped input only; -/
theorem keep0 (b : Ref sig .tc) (hb : b ≠ main_v0) (W : Valuation τ sig (Elt F)) : StableHlo.after hostOps0 W b = W b :=
  StableHlo.after_of_forall_not_mem (b := Proc.devRef .tc b) hostOps0 W (fun op hop => by
    rw [List.mem_singleton] at hop; subst hop
    rw [StableHlo.reshape_writes, Finset.mem_singleton]; exact StableHlo.devRef_ne_of_ne hb)
/-- the second writes the program's result only. -/
theorem keep1 (b : Ref sig .tc) (hb : b ≠ main_v2) (W : Valuation τ sig (Elt F)) : StableHlo.after hostOps1 W b = W b :=
  StableHlo.after_of_forall_not_mem (b := Proc.devRef .tc b) hostOps1 W (fun op hop => by
    rw [List.mem_singleton] at hop; subst hop
    rw [StableHlo.reshape_writes, Finset.mem_singleton]; exact StableHlo.devRef_ne_of_ne hb)

/-- A buffer that is neither reshape's result nor the region's result ends as launched. -/
theorem kept (c : Dev nD) (b : Ref sig .tc) (h0 : b ≠ main_v0) (h1 : b ≠ main_v1) (h2 : b ≠ main_v2) :
    StableHlo.after hostOps1 (V₁ m c) b = m ((c : Thread nD τ).loc b) :=
  (keep1 b h2 _).trans ((Function.update_of_ne (StableHlo.devRef_ne_of_ne h1) _ _).trans (keep0 b h0 _))

/-! ## The segments -/

abbrev 𝒱₀ : Variants := Variants.none
/-- No core owes another anything: no level is assigned. -/
abbrev Lz : GSem nD τ sig → Finset Unit := fun _ => ∅
abbrev lvz : GSem nD τ sig → Unit → ℕ := fun _ _ => 0
/-- The prefetched tables' admissible contents: no table. -/
abbrev adm : (p : Fin 1) → (pcfgs (F := F) p).Adm := fun p => (cfgs p).toPCfg_adm
/-- The pipeline library's algebra is the whole of the certificate's. -/
abbrev EP : Emb (UR sig nD τ) (MT nD τ sig Unit (Elt F) ℕ (UR sig nD τ) ℕ) := emb₁

/-- What rides beside the buffers from item to item: the core owing nothing. -/
abbrev R (c : Dev nD) : sProp 𝕄 := iprop(∃ W, owes (c : Thread nD τ) (0 : CellTallies nD τ sig Unit) W)

theorem hostOps0_fresh : ∀ op ∈ (hostOps0 (F := F)), op.fresh = ∅ := by
  intro _ h; (repeat (cases h with | head => rfl | tail _ h => ?_)); exact nomatch h
theorem hostOps1_fresh : ∀ op ∈ (hostOps1 (F := F)), op.fresh = ∅ := by
  intro _ h; (repeat (cases h with | head => rfl | tail _ h => ?_)); exact nomatch h

/-- The first reshape, over the unscoped buffers at the launch contents. -/
def seg0 : Pipeline.HostSeg (Name := ℕ) (U := UR sig nD τ) (pcfgs (F := F)) defs₀ 𝒱₀ Lz lvz :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- The second reshape, over the unscoped buffers as the region left them. -/
def seg1 : Pipeline.HostSeg (Name := ℕ) (U := UR sig nD τ) (pcfgs (F := F)) defs₀ 𝒱₀ Lz lvz :=
  Pipeline.HostSeg.ofOps _ _ _ _ _ (Pipeline.ucRefs τ sig) hostOps1
    (fun op h => Pipeline.sub_ucRefs op ((List.forall_iff_forall_mem.mp hostOps1_sub) op h)) hostOps1_fresh (V₁ m) R

set_option backward.isDefEq.respectTransparency.types false in
/-- The region: entered holding every unscoped buffer as the first reshape left it — the windows' arrays go to the
    pipeline (the reshaped input cut in two halves), the input as given and the program's result buffer bypass —, left
    holding every unscoped buffer at `V₁`. -/
def reg0 : Pipeline.RegionSeg (pcfgs (F := F)) adm (dats m) () defs₀ 𝒱₀ Lz lvz 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lz lvz 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V₁ m c) ∗ R c)
  X c := iprop(emp)
  Y c := iprop(emp)
  Z c := iprop((((c : Thread nD τ).loc main_arg0) ↦{fullShare} V m c main_arg0) ∗ (((c : Thread nD τ).loc main_v2) ↦{fullShare} V m c main_v2))
  hentry c := by
    rw [show StableHlo.held (c : Thread nD τ) (Pipeline.ucRefs τ sig) (StableHlo.after hostOps0 (V₀ m c)) = unscopedBufs c (V m c) from (Pipeline.unscopedBufs_held c _).symm,
      Pipeline.ownSems0_none, Pipeline.unscopedBufs_split₀ cfgs 0 winFacts₀0.arr_unscoped c (V m c), unscopedRest0_eq]
    iintro ⟨⟨⟨Harr, Hrest⟩, HO⟩, -, -⟩
    imodintro
    isplitl [Harr]; · iapply (arrays_entry m c); iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (dats m 0 c).Φ (Fin.last (Pipeline.pin (pcfgs (F := F)) adm 0).N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [show StableHlo.held (c : Thread nD τ) (Pipeline.ucRefs τ sig) (V₁ m c) = unscopedBufs c (fun b => V₁ m c b) from (Pipeline.unscopedBufs_held c _).symm,
      Pipeline.unscopedBufs_split₀ cfgs 0 winFacts₀0.arr_unscoped c (fun b => V₁ m c b), unscopedRest0_eq,
      show V₁ m c main_arg0 = V m c main_arg0 from Function.update_of_ne (StableHlo.devRef_ne_of_ne (by decide)) _ _,
      show V₁ m c main_v2 = V m c main_v2 from Function.update_of_ne (StableHlo.devRef_ne_of_ne (by decide)) _ _]
    iintro ⟨Ha, HO, -, HZ⟩
    imodintro
    isplitr [HO]
    · isplitl [Ha]; · iapply (arrays_exit m c); iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ Lz lvz) := [.host (seg0 m), .region (reg0 m), .host (seg1 m)]

/-! ## The run -/

/-- Where the program ends: the result buffer holds the second reshape of the region's result array `res`, and every
    argument is as launched. -/
def QC : PUnit × MemSt nD τ sig (Elt F) → Prop := fun r => ∀ c : Dev nD,
  r.2.mem ((c : Thread nD τ).loc main_v2) = StableHlo.after hostOps1 (V₁ m c) main_v2
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)

set_option backward.isDefEq.respectTransparency.types false in
/-- At the compiled mesh, for any float values, from any memory with zero counters: every weakly fair execution of @main
    on the TensorCores terminates, nothing faulting, in a state satisfying `QC`. -/
theorem run_main : θ_run defs (onTc (τ := τ) (main (F := F))) (s₀ m ρ) (QC m) :=
  Pipeline.θ_run_regions_kit (pcfgs (F := F)) adm (dats m) () cellOf_inj EP defs₀ 𝒱₀ Lz lvz m ρ main (segs m)
    (fun c Q => by rw [main_segs adm (dats m) () 𝒱₀ Lz lvz (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (StableHlo.after hostOps1 (V₁ m c)))
    (hch := ⟨fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ (Finset.univ.filter fun b : Ref sig .tc => ¬ b.isScoped), s.mem ((c : Thread nD τ).loc b) = StableHlo.after hostOps1 (V₁ m c) b)
    (hfin := fun c s' => by
      rw [show StableHlo.held (c : Thread nD τ) (Pipeline.ucRefs τ sig) (StableHlo.after hostOps1 (V₁ m c))
        = unscopedBufs c (fun b => StableHlo.after hostOps1 (V₁ m c) b) from (Pipeline.unscopedBufs_held c _).symm]
      unfold unscopedBufs
      iintro ⟨Hb, HSI⟩
      imodintro
      iapply (pointsTo_read_all (Finset.univ.filter fun b : Ref sig .tc => ¬ b.isScoped) (fun b => (c : Thread nD τ).loc b)
        (fun b => StableHlo.after hostOps1 (V₁ m c) b) s')
      isplitl [Hb] <;> iassumption)
    (hQ := fun s h c => ⟨h c main_v2 (by decide),
      (h c main_arg0 (by decide)).trans (kept m c main_arg0 (by decide) (by decide) (by decide)),
      (h c main_arg1 (by decide)).trans (kept m c main_arg1 (by decide) (by decide) (by decide)),
      (h c main_arg2 (by decide)).trans (kept m c main_arg2 (by decide) (by decide) (by decide)),
      (h c main_arg3 (by decide)).trans (kept m c main_arg3 (by decide) (by decide) (by decide)),
      (h c main_arg4 (by decide)).trans (kept m c main_arg4 (by decide) (by decide) (by decide)),
      (h c main_arg5 (by decide)).trans (kept m c main_arg5 (by decide) (by decide) (by decide)),
      (h c main_arg6 (by decide)).trans (kept m c main_arg6 (by decide) (by decide) (by decide))⟩)

end Cert.KernelIdeal.Fr

end
-- ==== Proof.Spec.lean ====
/-
  The function both programs compute, for ONE graph and ONE node of it.

  A graph is a matrix of node features `xr : node → feature` (2048 nodes, 64 features). For a query node with feature
  row `q`, three affine layers with weights `w` (output × input) and biases `c` are applied as follows:
    * `lin q w c h = (∑ f, q f * w h f) + c h`, the affine layer's entry `h`;
    * `adj … m = max (∑ h, lin q w1 c1 h * lin (xr m) w2 c2 h) 0`, the rectified inner product of the query's
      first embedding with node `m`'s second embedding: the adjacency weight of the pair;
    * `prop … f = ∑ m, adj … m * xr m f`, the features propagated to the query over all nodes;
    * `gcnRow … o = lin (prop …) w3 c3 o`, the output projection.
  All on the extended reals, every sum over a literal finite range, every product written left factor first as the
  two programs write it: no algebraic law is needed to identify either program's result with `gcnRow`.
-/
import Idealize.ShloMosaic.PureOps.Ideal

noncomputable section

namespace Cert.GcnSpec

/-- Entry `h` of an affine layer applied to the row `q`: the weights' row `h` against `q`, plus the bias. -/
def lin (q : Fin 64 → EReal) (w : Fin 64 → Fin 64 → EReal) (c : Fin 64 → EReal) (h : Fin 64) : EReal :=
  (∑ f : Fin 64, q f * w h f) + c h

/-- The adjacency weight between the query row `q` and node `m` of the graph `xr`: the rectified inner product of
    the query's first embedding and the node's second embedding. -/
def adj (q : Fin 64 → EReal) (xr : Fin 2048 → Fin 64 → EReal) (w1 : Fin 64 → Fin 64 → EReal) (c1 : Fin 64 → EReal)
    (w2 : Fin 64 → Fin 64 → EReal) (c2 : Fin 64 → EReal) (m : Fin 2048) : EReal :=
  max (∑ h : Fin 64, lin q w1 c1 h * lin (xr m) w2 c2 h) 0

/-- Feature `f` propagated to the query: every node's feature weighted by its adjacency to the query. -/
def prop (q : Fin 64 → EReal) (xr : Fin 2048 → Fin 64 → EReal) (w1 : Fin 64 → Fin 64 → EReal) (c1 : Fin 64 → EReal)
    (w2 : Fin 64 → Fin 64 → EReal) (c2 : Fin 64 → EReal) (f : Fin 64) : EReal :=
  ∑ m : Fin 2048, adj q xr w1 c1 w2 c2 m * xr m f

/-- Output `o` for the query row `q` in the graph `xr`: the third affine layer on the propagated features. -/
def gcnRow (q : Fin 64 → EReal) (xr : Fin 2048 → Fin 64 → EReal) (w1 : Fin 64 → Fin 64 → EReal) (c1 : Fin 64 → EReal)
    (w2 : Fin 64 → Fin 64 → EReal) (c2 : Fin 64 → EReal) (w3 : Fin 64 → Fin 64 → EReal) (c3 : Fin 64 → EReal)
    (o : Fin 64) : EReal :=
  lin (prop q xr w1 c1 w2 c2) w3 c3 o

end Cert.GcnSpec

end
-- ==== Proof.Payload.lean ====
/-
  The kernel body's arithmetic read at one index.

  The body computes, for a tile of 256 query rows of one graph with 2048 nodes and 64 features: a first affine
  layer on the query rows, a second affine layer on all node rows, the rectified product of the two embeddings
  (one row of adjacency weights per query row), the adjacency-weighted sum of the node features, and a third
  affine layer on that. Each matrix product is a plain sum over its one contracted coordinate; each bias is one
  row repeated over all rows; the rectification is the maximum with zero. Read at the output coordinate
  (0, r, o), the result is the per-row function of the specification applied to row r of the query tile.
-/
import proofs.«176366_j30863634989345_1_alg».proof.Proof.Gen.KernelIdeal.Skeleton
import proofs.«176366_j30863634989345_1_alg».proof.Proof.Spec
import Idealize.ShloMosaic.Lib.ValueLayout
import Idealize.ShloMosaic.Lib.ValueIdx
import Idealize.ShloMosaic.PureOps.Ideal.Laws

noncomputable section

namespace Cert.KernelIdeal.PayloadAt

open Cert.KernelIdeal Cert.KernelIdeal.Gen Idealize.ShloMosaic Idealize.ShloMosaic.ValueIdx

/-! ## A [256,64] by [64,64] product, both contracted on their second coordinate -/

theorem lhs_q64_0 (i : S256x64.Idx) (q : dot_S256x64_S64x64_S256x64_1_1_0_0_n_n.contr.Idx) :
    (dot_S256x64_S64x64_S256x64_1_1_0_0_n_n.lhsIdx i q 0).val = (i 0).val := by
  unfold DotDims.lhsIdx
  rw [dif_neg (show ¬(0 : Fin S256x64.rank) ∈ dot_S256x64_S64x64_S256x64_1_1_0_0_n_n.lhsBatch by decide), dif_pos (show (0 : Fin S256x64.rank) ∈ dot_S256x64_S64x64_S256x64_1_1_0_0_n_n.lhsNonContracting by decide)]
  rfl
theorem lhs_q64_1 (i : S256x64.Idx) (q : dot_S256x64_S64x64_S256x64_1_1_0_0_n_n.contr.Idx) :
    (dot_S256x64_S64x64_S256x64_1_1_0_0_n_n.lhsIdx i q 1).val = (q ⟨0, by decide⟩).val :=
  dot_S256x64_S64x64_S256x64_1_1_0_0_n_n.lhsIdx_val_of_single rfl i q
theorem rhs_q64_0 (i : S256x64.Idx) (q : dot_S256x64_S64x64_S256x64_1_1_0_0_n_n.contr.Idx) :
    (dot_S256x64_S64x64_S256x64_1_1_0_0_n_n.rhsIdx i q 0).val = (i 1).val := by
  unfold DotDims.rhsIdx
  rw [dif_neg (show ¬(0 : Fin S64x64.rank) ∈ dot_S256x64_S64x64_S256x64_1_1_0_0_n_n.rhsBatch by decide), dif_pos (show (0 : Fin S64x64.rank) ∈ dot_S256x64_S64x64_S256x64_1_1_0_0_n_n.rhsNonContracting by decide)]
  rfl
theorem rhs_q64_1 (i : S256x64.Idx) (q : dot_S256x64_S64x64_S256x64_1_1_0_0_n_n.contr.Idx) :
    (dot_S256x64_S64x64_S256x64_1_1_0_0_n_n.rhsIdx i q 1).val = (q ⟨0, by decide⟩).val :=
  dot_S256x64_S64x64_S256x64_1_1_0_0_n_n.rhsIdx_val_of_single rfl i q

/-- Into the zero accumulator, the product of a [256,64] tile with the transpose of a [64,64] matrix reads, at
    (r, h), the sum over f of the tile at (r, f) times the matrix at (h, f). -/
theorem matmul_q64_apply {φ₁ φ₂ : FTy} (a : FVec Ideal S256x64 φ₁) (w : FVec Ideal S64x64 φ₂) (r : Fin 256) (h : Fin 64) :
    matmul dot_S256x64_S64x64_S256x64_1_1_0_0_n_n none a w (constant (F := Ideal) S256x64 .f32 0x00000000#32) (ix2 r h)
      = ∑ f : Fin 64, a (ix2 r f) * w (ix2 h f) := by
  show FloatOps.matmul _ _ _ _ _ _ = _
  rw [Ideal.matmul_constant_zero_apply, ← Equiv.sum_comp (contrEquiv1 dot_S256x64_S64x64_S256x64_1_1_0_0_n_n 64 rfl rfl).symm]
  refine Finset.sum_congr rfl fun k _ => ?_
  have hk := contrEquiv1_symm_val dot_S256x64_S64x64_S256x64_1_1_0_0_n_n 64 rfl rfl k
  have el : dot_S256x64_S64x64_S256x64_1_1_0_0_n_n.lhsIdx (ix2 r h) ((contrEquiv1 dot_S256x64_S64x64_S256x64_1_1_0_0_n_n 64 rfl rfl).symm k) = ix2 r k := funext fun a => Fin.ext (by
    match a with
    | ⟨0, _⟩ => exact lhs_q64_0 _ _
    | ⟨1, _⟩ => exact (lhs_q64_1 _ _).trans hk)
  have er : dot_S256x64_S64x64_S256x64_1_1_0_0_n_n.rhsIdx (ix2 r h) ((contrEquiv1 dot_S256x64_S64x64_S256x64_1_1_0_0_n_n 64 rfl rfl).symm k) = ix2 h k := funext fun a => Fin.ext (by
    match a with
    | ⟨0, _⟩ => exact rhs_q64_0 _ _
    | ⟨1, _⟩ => exact (rhs_q64_1 _ _).trans hk)
  rw [el, er]

/-! ## A [2048,64] by [64,64] product, both contracted on their second coordinate -/

theorem lhs_n64_0 (i : S2048x64.Idx) (q : dot_S2048x64_S64x64_S2048x64_1_1_0_0_n_n.contr.Idx) :
    (dot_S2048x64_S64x64_S2048x64_1_1_0_0_n_n.lhsIdx i q 0).val = (i 0).val := by
  unfold DotDims.lhsIdx
  rw [dif_neg (show ¬(0 : Fin S2048x64.rank) ∈ dot_S2048x64_S64x64_S2048x64_1_1_0_0_n_n.lhsBatch by decide), dif_pos (show (0 : Fin S2048x64.rank) ∈ dot_S2048x64_S64x64_S2048x64_1_1_0_0_n_n.lhsNonContracting by decide)]
  rfl
theorem lhs_n64_1 (i : S2048x64.Idx) (q : dot_S2048x64_S64x64_S2048x64_1_1_0_0_n_n.contr.Idx) :
    (dot_S2048x64_S64x64_S2048x64_1_1_0_0_n_n.lhsIdx i q 1).val = (q ⟨0, by decide⟩).val :=
  dot_S2048x64_S64x64_S2048x64_1_1_0_0_n_n.lhsIdx_val_of_single rfl i q
theorem rhs_n64_0 (i : S2048x64.Idx) (q : dot_S2048x64_S64x64_S2048x64_1_1_0_0_n_n.contr.Idx) :
    (dot_S2048x64_S64x64_S2048x64_1_1_0_0_n_n.rhsIdx i q 0).val = (i 1).val := by
  unfold DotDims.rhsIdx
  rw [dif_neg (show ¬(0 : Fin S64x64.rank) ∈ dot_S2048x64_S64x64_S2048x64_1_1_0_0_n_n.rhsBatch by decide), dif_pos (show (0 : Fin S64x64.rank) ∈ dot_S2048x64_S64x64_S2048x64_1_1_0_0_n_n.rhsNonContracting by decide)]
  rfl
theorem rhs_n64_1 (i : S2048x64.Idx) (q : dot_S2048x64_S64x64_S2048x64_1_1_0_0_n_n.contr.Idx) :
    (dot_S2048x64_S64x64_S2048x64_1_1_0_0_n_n.rhsIdx i q 1).val = (q ⟨0, by decide⟩).val :=
  dot_S2048x64_S64x64_S2048x64_1_1_0_0_n_n.rhsIdx_val_of_single rfl i q

/-- Into the zero accumulator, the product of the [2048,64] node matrix with the transpose of a [64,64] matrix
    reads, at (m, h), the sum over f of the node matrix at (m, f) times the matrix at (h, f). -/
theorem matmul_n64_apply {φ₁ φ₂ : FTy} (a : FVec Ideal S2048x64 φ₁) (w : FVec Ideal S64x64 φ₂) (m : Fin 2048) (h : Fin 64) :
    matmul dot_S2048x64_S64x64_S2048x64_1_1_0_0_n_n none a w (constant (F := Ideal) S2048x64 .f32 0x00000000#32) (ix2 m h)
      = ∑ f : Fin 64, a (ix2 m f) * w (ix2 h f) := by
  show FloatOps.matmul _ _ _ _ _ _ = _
  rw [Ideal.matmul_constant_zero_apply, ← Equiv.sum_comp (contrEquiv1 dot_S2048x64_S64x64_S2048x64_1_1_0_0_n_n 64 rfl rfl).symm]
  refine Finset.sum_congr rfl fun k _ => ?_
  have hk := contrEquiv1_symm_val dot_S2048x64_S64x64_S2048x64_1_1_0_0_n_n 64 rfl rfl k
  have el : dot_S2048x64_S64x64_S2048x64_1_1_0_0_n_n.lhsIdx (ix2 m h) ((contrEquiv1 dot_S2048x64_S64x64_S2048x64_1_1_0_0_n_n 64 rfl rfl).symm k) = ix2 m k := funext fun a => Fin.ext (by
    match a with
    | ⟨0, _⟩ => exact lhs_n64_0 _ _
    | ⟨1, _⟩ => exact (lhs_n64_1 _ _).trans hk)
  have er : dot_S2048x64_S64x64_S2048x64_1_1_0_0_n_n.rhsIdx (ix2 m h) ((contrEquiv1 dot_S2048x64_S64x64_S2048x64_1_1_0_0_n_n 64 rfl rfl).symm k) = ix2 h k := funext fun a => Fin.ext (by
    match a with
    | ⟨0, _⟩ => exact rhs_n64_0 _ _
    | ⟨1, _⟩ => exact (rhs_n64_1 _ _).trans hk)
  rw [el, er]

/-! ## A [256,64] by [2048,64] product, both contracted on their second coordinate -/

theorem lhs_qn_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem lhs_qn_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem rhs_qn_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem rhs_qn_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- Into the zero accumulator, the product of a [256,64] tile with the transpose of a [2048,64] matrix reads, at
    (r, m), the sum over h of the tile at (r, h) times the matrix at (m, h). -/
theorem matmul_qn_apply {φ₁ φ₂ : FTy} (a : FVec Ideal S256x64 φ₁) (b : FVec Ideal S2048x64 φ₂) (r : Fin 256) (m : Fin 2048) :
    matmul dot_S256x64_S2048x64_S256x2048_1_1_0_0_n_n none a b (constant (F := Ideal) S256x2048 .f32 0x00000000#32) (ix2 r m)
      = ∑ h : Fin 64, a (ix2 r h) * b (ix2 m h) := by
  show FloatOps.matmul _ _ _ _ _ _ = _
  rw [Ideal.matmul_constant_zero_apply, ← Equiv.sum_comp (contrEquiv1 dot_S256x64_S2048x64_S256x2048_1_1_0_0_n_n 64 rfl rfl).symm]
  refine Finset.sum_congr rfl fun k _ => ?_
  have hk := contrEquiv1_symm_val dot_S256x64_S2048x64_S256x2048_1_1_0_0_n_n 64 rfl rfl k
  have el : dot_S256x64_S2048x64_S256x2048_1_1_0_0_n_n.lhsIdx (ix2 r m) ((contrEquiv1 dot_S256x64_S2048x64_S256x2048_1_1_0_0_n_n 64 rfl rfl).symm k) = ix2 r k := funext fun a => Fin.ext (by
    match a with
    | ⟨0, _⟩ => exact lhs_qn_0 _ _
    | ⟨1, _⟩ => exact (lhs_qn_1 _ _).trans hk)
  have er : dot_S256x64_S2048x64_S256x2048_1_1_0_0_n_n.rhsIdx (ix2 r m) ((contrEquiv1 dot_S256x64_S2048x64_S256x2048_1_1_0_0_n_n 64 rfl rfl).symm k) = ix2 m k := funext fun a => Fin.ext (by
    match a with
    | ⟨0, _⟩ => exact rhs_qn_0 _ _
    | ⟨1, _⟩ => exact (rhs_qn_1 _ _).trans hk)
  rw [el, er]

/-! ## A [256,2048] by [2048,64] product, the left contracted on its second coordinate and the right on its first -/

theorem lhs_prop_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_prop_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_prop_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_prop_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- Into the zero accumulator, the product of a [256,2048] matrix with a [2048,64] matrix reads, at (r, f), the
    sum over m of the left at (r, m) times the right at (m, f). -/
theorem matmul_prop_apply {φ₁ φ₂ : FTy} (a : FVec Ideal S256x2048 φ₁) (x : FVec Ideal S2048x64 φ₂) (r : Fin 256) (f : Fin 64) :
    matmul dot_S256x2048_S2048x64_S256x64_1_0_0_1_n_n none a x (constant (F := Ideal) S256x64 .f32 0x00000000#32) (ix2 r f)
      = ∑ m : Fin 2048, a (ix2 r m) * x (ix2 m f) := by
  show FloatOps.matmul _ _ _ _ _ _ = _
  rw [Ideal.matmul_constant_zero_apply, ← Equiv.sum_comp (contrEquiv1 dot_S256x2048_S2048x64_S256x64_1_0_0_1_n_n 2048 rfl rfl).symm]
  refine Finset.sum_congr rfl fun k _ => ?_
  have hk := contrEquiv1_symm_val dot_S256x2048_S2048x64_S256x64_1_0_0_1_n_n 2048 rfl rfl k
  have el : dot_S256x2048_S2048x64_S256x64_1_0_0_1_n_n.lhsIdx (ix2 r f) ((contrEquiv1 dot_S256x2048_S2048x64_S256x64_1_0_0_1_n_n 2048 rfl rfl).symm k) = ix2 r k := funext fun a => Fin.ext (by
    match a with
    | ⟨0, _⟩ => exact lhs_prop_0 _ _
    | ⟨1, _⟩ => exact (lhs_prop_1 _ _).trans hk)
  have er : dot_S256x2048_S2048x64_S256x64_1_0_0_1_n_n.rhsIdx (ix2 r f) ((contrEquiv1 dot_S256x2048_S2048x64_S256x64_1_0_0_1_n_n 2048 rfl rfl).symm k) = ix2 k f := funext fun a => Fin.ext (by
    match a with
    | ⟨0, _⟩ => exact (rhs_prop_0 _ _).trans hk
    | ⟨1, _⟩ => exact rhs_prop_1 _ _)
  rw [el, er]

/-! ## The body at an index -/

theorem pay_apply (v0 : Vec Ideal S1x2048x64 .f32) (v3 : Vec Ideal S1x256x64 .f32) (v6 v8 v10 : Vec Ideal S64x64 .f32)
    (v12 v13 v14 : Vec Ideal S64 .f32) (r : Fin 256) (o : Fin 64) :
    k0_pay1 (F := Ideal) (k0_pay2 (F := Ideal) v0 v3 v6 v8 v10 v12 v13 v14) (ValueIdx.ix3 (0 : Fin 1) r o)
      = Cert.GcnSpec.gcnRow (fun f => v3 (ValueIdx.ix3 (0 : Fin 1) r f)) (fun m f => v0 (ValueIdx.ix3 (0 : Fin 1) m f))
          (fun h f => v6 (ValueIdx.ix2 h f)) (fun h => v12 (ValueIdx.ix1 h)) (fun h f => v8 (ValueIdx.ix2 h f)) (fun h => v13 (ValueIdx.ix1 h))
          (fun h f => v10 (ValueIdx.ix2 h f)) (fun h => v14 (ValueIdx.ix1 h)) o := by
  unfold k0_pay1 k0_pay2
  simp only [shapeCast_ab_1ab_apply, addf_apply, maximumf_apply, broadcast_apply, truncf_apply,
    matmul_q64_apply, matmul_n64_apply, matmul_qn_apply, matmul_prop_apply,
    broadcastTo_1b_ab_apply, shapeCast_a_1a_apply, shapeCast_1ab_ab_apply, Ideal.ofBits_def, Ideal.ofBits_zero_f32]
  rfl

end Cert.KernelIdeal.PayloadAt

end
-- ==== Proof.ResultIdeal.lean ====
/-
  From the tiles the kernel writes back to the whole result array.

  The grid has 32 × 8 points; point (g, q) is handed graph g whole, rows 256 q … 256 q + 255 of graph g (the query tile),
  the three weight matrices and the three biases whole, and writes back rows 256 q … 256 q + 255 of graph g of the
  result. An element of a block sits in its array, on each axis, at the block index times the block's size plus its
  coordinate inside the block. So the body's arithmetic at row r, feature o of the tile written at point (g, q) is the
  per-row function of the specification at node 256 q + r of graph g: every point writes its tile of ONE function of
  the argument arrays, `gcnResultArr`. The 256 tiles cover the result array (the element (g, n, o) lies in the tile of
  point (g, n / 256)), so after the last point the array holds that function everywhere.
-/
import proofs.«176366_j30863634989345_1_alg».proof.Proof.BodyIdeal
import proofs.«176366_j30863634989345_1_alg».proof.Proof.Payload
import proofs.«176366_j30863634989345_1_alg».proof.Proof.Spec
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

variable (m : (ℓ : Loc nD τ sig) → Buf (Elt Ideal) ℓ)

/-! ## The result as one function of the argument arrays, and the index maps decided over the grid -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The result at graph g, node n, output feature o. -/
def gcnResultAt (a0 : S32x2048x64.Idx → EReal) (w1 : S64x64.Idx → EReal) (b1 : S64.Idx → EReal)
    (w2 : S64x64.Idx → EReal) (b2 : S64.Idx → EReal) (w3 : S64x64.Idx → EReal) (b3 : S64.Idx → EReal)
    (g : Fin 32) (n : Fin 2048) (o : Fin 64) : EReal :=
  Cert.GcnSpec.gcnRow (fun f => a0 (ix3 g n f)) (fun mm f => a0 (ix3 g mm f))
    (fun h f => w1 (ix2 h f)) (fun h => b1 (ix1 h)) (fun h f => w2 (ix2 h f)) (fun h => b2 (ix1 h))
    (fun h f => w3 (ix2 h f)) (fun h => b3 (ix1 h)) o

/-- The whole result array. -/
def gcnResultArr (a0 : S32x2048x64.Idx → EReal) (w1 : S64x64.Idx → EReal) (b1 : S64.Idx → EReal)
    (w2 : S64x64.Idx → EReal) (b2 : S64.Idx → EReal) (w3 : S64x64.Idx → EReal) (b3 : S64.Idx → EReal) :
    S32x2048x64.Idx → EReal :=
  fun i => gcnResultAt a0 w1 b1 w2 b2 w3 b3 (i 0) (i 1) (i 2)

theorem idx_facts8 : ∀ t : Fin cfg0.N,
    win0_0.index t (0 : Fin 3) = win0_8.index t (0 : Fin 3)
    ∧ win0_0.index t (1 : Fin 3) = 0
    ∧ win0_0.index t (2 : Fin 3) = 0
    ∧ win0_1.index t (0 : Fin 3) = win0_8.index t (0 : Fin 3)
    ∧ win0_1.index t (1 : Fin 3) = win0_8.index t (1 : Fin 3)
    ∧ win0_1.index t (2 : Fin 3) = win0_8.index t (2 : Fin 3)
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 3) ≤ 31
    ∧ win0_8.index t (1 : Fin 3) ≤ 7
    ∧ win0_8.index t (2 : Fin 3) = 0 :=
  (by decide +kernel : ∀ t : Fin grid0.N, _)

theorem idx_onto8 : ∀ (q0 : Fin 32) (q1 : Fin 8), ∃ t : Fin cfg0.N, win0_8.index t = ![q0.val, q1.val, 0] :=
  (by decide +kernel : ∀ (q0 : Fin 32) (q1 : Fin 8), ∃ t : Fin grid0.N, win0_8.index t = ![q0.val, q1.val, 0])

/-! ## Each input block, read where the array index says -/

/-- The whole-graph block: node mm, feature f of the block is the array at (g, mm, f). -/
theorem graph_block (c : Dev nD) (t : Fin cfg0.N) (g : Fin 32) (hg : win0_8.index t (0 : Fin 3) = g.val)
    (mm : Fin 2048) (f : Fin 64) :
    (iblk m c 0 t : Vec Ideal S1x2048x64 .f32) (ix3 (0 : Fin 1) mm f) = V m c main_v0 (ix3 g mm f) := by
  obtain ⟨e0, e1, e2, -⟩ := idx_facts8 t
  unfold iblk
  rw [View.read_apply]
  show V m c main_v0 _ = V m c main_v0 _
  congr 1
  funext a
  apply Fin.ext
  match a with
  | ⟨0, _⟩ => show win0_0.index t (0 : Fin 3) * 1 + 1 * 0 = g.val; omega
  | ⟨1, _⟩ => show win0_0.index t (1 : Fin 3) * 2048 + 1 * mm.val = mm.val; omega
  | ⟨2, _⟩ => show win0_0.index t (2 : Fin 3) * 64 + 1 * f.val = f.val; omega

/-- The query tile: row r, feature f of the tile is the array at (g, 256 q + r, f). -/
theorem query_block (c : Dev nD) (t : Fin cfg0.N) (g : Fin 32) (hg : win0_8.index t (0 : Fin 3) = g.val)
    (r : Fin 256) (n : Fin 2048) (hn : n.val = win0_8.index t (1 : Fin 3) * 256 + r.val) (f : Fin 64) :
    (iblk m c 1 t : Vec Ideal S1x256x64 .f32) (ix3 (0 : Fin 1) r f) = V m c main_v0 (ix3 g n f) := by
  obtain ⟨-, -, -, e0, e1, e2, -, -, -, -, -, -, -, -, -, -, -, e3⟩ := idx_facts8 t
  unfold iblk
  rw [View.read_apply]
  show V m c main_v0 _ = V m c main_v0 _
  congr 1
  funext a
  apply Fin.ext
  match a with
  | ⟨0, _⟩ => show win0_1.index t (0 : Fin 3) * 1 + 1 * 0 = g.val; omega
  | ⟨1, _⟩ => show win0_1.index t (1 : Fin 3) * 256 + 1 * r.val = n.val; omega
  | ⟨2, _⟩ => show win0_1.index t (2 : Fin 3) * 64 + 1 * f.val = f.val; omega

/-- The first layer's weights are fetched whole. -/
theorem weight1_block (c : Dev nD) (t : Fin cfg0.N) (h f : Fin 64) :
    (iblk m c 2 t : Vec Ideal S64x64 .f32) (ix2 h f) = V m c main_arg1 (ix2 h f) := by
  obtain ⟨-, -, -, -, -, -, a20, a21, -, a40, a41, -, a60, a61, -⟩ := idx_facts8 t
  unfold iblk
  rw [View.read_apply]
  show V m c main_arg1 _ = V m c main_arg1 _
  congr 1
  funext a
  apply Fin.ext
  match a with
  | ⟨0, _⟩ => show win0_2.index t (0 : Fin 2) * 64 + 1 * h.val = h.val; omega
  | ⟨1, _⟩ => show win0_2.index t (1 : Fin 2) * 64 + 1 * f.val = f.val; omega

/-- The first layer's bias is fetched whole. -/
theorem bias1_block (c : Dev nD) (t : Fin cfg0.N) (h : Fin 64) :
    (iblk m c 3 t : Vec Ideal S64 .f32) (ix1 h) = V m c main_arg2 (ix1 h) := by
  obtain ⟨-, -, -, -, -, -, -, -, a30, -, -, a50, -, -, a70, -⟩ := idx_facts8 t
  unfold iblk
  rw [View.read_apply]
  show V m c main_arg2 _ = V m c main_arg2 _
  congr 1
  funext a
  apply Fin.ext
  match a with
  | ⟨0, _⟩ => show win0_3.index t (0 : Fin 1) * 64 + 1 * h.val = h.val; omega

/-- The second layer's weights are fetched whole. -/
theorem weight2_block (c : Dev nD) (t : Fin cfg0.N) (h f : Fin 64) :
    (iblk m c 4 t : Vec Ideal S64x64 .f32) (ix2 h f) = V m c main_arg3 (ix2 h f) := by
  obtain ⟨-, -, -, -, -, -, a20, a21, -, a40, a41, -, a60, a61, -⟩ := idx_facts8 t
  unfold iblk
  rw [View.read_apply]
  show V m c main_arg3 _ = V m c main_arg3 _
  congr 1
  funext a
  apply Fin.ext
  match a with
  | ⟨0, _⟩ => show win0_4.index t (0 : Fin 2) * 64 + 1 * h.val = h.val; omega
  | ⟨1, _⟩ => show win0_4.index t (1 : Fin 2) * 64 + 1 * f.val = f.val; omega

/-- The second layer's bias is fetched whole. -/
theorem bias2_block (c : Dev nD) (t : Fin cfg0.N) (h : Fin 64) :
    (iblk m c 5 t : Vec Ideal S64 .f32) (ix1 h) = V m c main_arg4 (ix1 h) := by
  obtain ⟨-, -, -, -, -, -, -, -, a30, -, -, a50, -, -, a70, -⟩ := idx_facts8 t
  unfold iblk
  rw [View.read_apply]
  show V m c main_arg4 _ = V m c main_arg4 _
  congr 1
  funext a
  apply Fin.ext
  match a with
  | ⟨0, _⟩ => show win0_5.index t (0 : Fin 1) * 64 + 1 * h.val = h.val; omega

/-- The third layer's weights are fetched whole. -/
theorem weight3_block (c : Dev nD) (t : Fin cfg0.N) (h f : Fin 64) :
    (iblk m c 6 t : Vec Ideal S64x64 .f32) (ix2 h f) = V m c main_arg5 (ix2 h f) := by
  obtain ⟨-, -, -, -, -, -, a20, a21, -, a40, a41, -, a60, a61, -⟩ := idx_facts8 t
  unfold iblk
  rw [View.read_apply]
  show V m c main_arg5 _ = V m c main_arg5 _
  congr 1
  funext a
  apply Fin.ext
  match a with
  | ⟨0, _⟩ => show win0_6.index t (0 : Fin 2) * 64 + 1 * h.val = h.val; omega
  | ⟨1, _⟩ => show win0_6.index t (1 : Fin 2) * 64 + 1 * f.val = f.val; omega

/-- The third layer's bias is fetched whole. -/
theorem bias3_block (c : Dev nD) (t : Fin cfg0.N) (h : Fin 64) :
    (iblk m c 7 t : Vec Ideal S64 .f32) (ix1 h) = V m c main_arg6 (ix1 h) := by
  obtain ⟨-, -, -, -, -, -, -, -, a30, -, -, a50, -, -, a70, -⟩ := idx_facts8 t
  unfold iblk
  rw [View.read_apply]
  show V m c main_arg6 _ = V m c main_arg6 _
  congr 1
  funext a
  apply Fin.ext
  match a with
  | ⟨0, _⟩ => show win0_7.index t (0 : Fin 1) * 64 + 1 * h.val = h.val; omega

/-! ## One tile of the result -/

/-- If the eight blocks are the arrays read at graph g, query tile q, then the body's arithmetic at row r, feature o of
    the tile is the result at (g, 256 q + r, o). -/
theorem tile_apply (a0 : S32x2048x64.Idx → EReal) (w1 : S64x64.Idx → EReal) (b1 : S64.Idx → EReal)
    (w2 : S64x64.Idx → EReal) (b2 : S64.Idx → EReal) (w3 : S64x64.Idx → EReal) (b3 : S64.Idx → EReal)
    (x0 : Vec Ideal S1x2048x64 .f32) (x1 : Vec Ideal S1x256x64 .f32) (x2 : Vec Ideal S64x64 .f32) (x3 : Vec Ideal S64 .f32)
    (x4 : Vec Ideal S64x64 .f32) (x5 : Vec Ideal S64 .f32) (x6 : Vec Ideal S64x64 .f32) (x7 : Vec Ideal S64 .f32)
    (g : Fin 32) (q : Nat)
    (h0 : ∀ (mm : Fin 2048) (f : Fin 64), x0 (ix3 (0 : Fin 1) mm f) = a0 (ix3 g mm f))
    (h1 : ∀ (r : Fin 256) (n : Fin 2048), n.val = q * 256 + r.val → ∀ f : Fin 64, x1 (ix3 (0 : Fin 1) r f) = a0 (ix3 g n f))
    (h2 : ∀ h f : Fin 64, x2 (ix2 h f) = w1 (ix2 h f)) (h3 : ∀ h : Fin 64, x3 (ix1 h) = b1 (ix1 h))
    (h4 : ∀ h f : Fin 64, x4 (ix2 h f) = w2 (ix2 h f)) (h5 : ∀ h : Fin 64, x5 (ix1 h) = b2 (ix1 h))
    (h6 : ∀ h f : Fin 64, x6 (ix2 h f) = w3 (ix2 h f)) (h7 : ∀ h : Fin 64, x7 (ix1 h) = b3 (ix1 h))
    (j : S1x256x64.Idx) (i : S32x2048x64.Idx)
    (hi0 : (i 0).val = g.val) (hi1 : (i 1).val = q * 256 + (j 1).val) (hi2 : (i 2).val = (j 2).val) :
    k0_pay1 (F := Ideal) (k0_pay2 (F := Ideal) x0 x1 x2 x4 x6 x3 x5 x7) j = gcnResultArr a0 w1 b1 w2 b2 w3 b3 i := by
  obtain ⟨z, r, o, rfl⟩ : ∃ (z : Fin 1) (r : Fin 256) (o : Fin 64), j = ix3 z r o := ⟨j 0, j 1, j 2, eq_ix3 j⟩
  obtain rfl : z = 0 := Subsingleton.elim _ _
  obtain ⟨gi, n, oi, rfl⟩ : ∃ (gi : Fin 32) (n : Fin 2048) (oi : Fin 64), i = ix3 gi n oi := ⟨i 0, i 1, i 2, eq_ix3 i⟩
  obtain rfl : gi = g := Fin.ext hi0
  obtain rfl : oi = o := Fin.ext hi2
  have hn : n.val = q * 256 + r.val := hi1
  rw [Cert.KernelIdeal.PayloadAt.pay_apply]
  have e0 : (fun (mm : Fin 2048) (f : Fin 64) => x0 (ix3 (0 : Fin 1) mm f)) = fun mm f => a0 (ix3 gi mm f) :=
    funext fun mm => funext fun f => h0 mm f
  have e1 : (fun f : Fin 64 => x1 (ix3 (0 : Fin 1) r f)) = fun f => a0 (ix3 gi n f) := funext fun f => h1 r n hn f
  have e2 : (fun h f : Fin 64 => x2 (ix2 h f)) = fun h f => w1 (ix2 h f) := funext fun h => funext fun f => h2 h f
  have e3 : (fun h : Fin 64 => x3 (ix1 h)) = fun h => b1 (ix1 h) := funext fun h => h3 h
  have e4 : (fun h f : Fin 64 => x4 (ix2 h f)) = fun h f => w2 (ix2 h f) := funext fun h => funext fun f => h4 h f
  have e5 : (fun h : Fin 64 => x5 (ix1 h)) = fun h => b2 (ix1 h) := funext fun h => h5 h
  have e6 : (fun h f : Fin 64 => x6 (ix2 h f)) = fun h f => w3 (ix2 h f) := funext fun h => funext fun f => h6 h f
  have e7 : (fun h : Fin 64 => x7 (ix1 h)) = fun h => b3 (ix1 h) := funext fun h => h7 h
  rw [e0, e1, e2, e3, e4, e5, e6, e7]
  rfl

/-! ## What a point writes back, and the whole array -/

/-- What point t writes back is its block of the result array. -/
theorem flushed8_eq (c : Dev nD) (t : Fin cfg0.N) :
    (dats m 0 c).flushed 8 t = ((cfg0.win 8).blk t).view.read (Elt Ideal)
      (gcnResultArr (V m c main_v0) (V m c main_arg1) (V m c main_arg2) (V m c main_arg3) (V m c main_arg4)
        (V m c main_arg5) (V m c main_arg6)) := by
  show (cfg0.win 8).cut (grid0.coords t) ((dats m 0 c).after 8 t) = _
  rw [after0_8]
  unfold out8
  rw [View.canon_unit_zero zeros3]
  simp only [View.ld_unit_zero (S := S1x2048x64) zeros3, View.ld_unit_zero (S := S1x256x64) zeros3,
    View.ld_unit_zero (S := S64x64) zeros2, View.ld_unit_zero (S := S64) zeros1]
  obtain ⟨-, -, -, -, -, -, -, -, -, -, -, -, -, -, -, b0, b1, b2⟩ := idx_facts8 t
  funext j
  exact tile_apply _ _ _ _ _ _ _ (iblk m c 0 t) (iblk m c 1 t) (iblk m c 2 t) (iblk m c 3 t) (iblk m c 4 t)
    (iblk m c 5 t) (iblk m c 6 t) (iblk m c 7 t) ⟨win0_8.index t (0 : Fin 3), by omega⟩ (win0_8.index t (1 : Fin 3))
    (fun mm f => graph_block m c t _ rfl mm f) (fun r n hn f => query_block m c t _ rfl r n hn f)
    (weight1_block m c t) (bias1_block m c t) (weight2_block m c t) (bias2_block m c t)
    (weight3_block m c t) (bias3_block m c t) j (((cfg0.win 8).blk t).view.emb j)
    (show win0_8.index t (0 : Fin 3) * 1 + 1 * (j 0).val = win0_8.index t (0 : Fin 3) by
      have hj : (j 0).val < 1 := (j 0).isLt
      omega)
    (show win0_8.index t (1 : Fin 3) * 256 + 1 * (j 1).val = win0_8.index t (1 : Fin 3) * 256 + (j 1).val by omega)
    (show win0_8.index t (2 : Fin 3) * 64 + 1 * (j 2).val = (j 2).val by omega)

/-- An index of the array is in point t's block iff each coordinate is in the block's range on its axis. -/
theorem mem_blk8 (t : Fin cfg0.N) (i : S32x2048x64.Idx) :
    i ∈ ((cfg0.win 8).blk t).view.set ↔ ∀ a : Fin 3, win0_8.index t a * S1x256x64.size a ≤ (i a).val
      ∧ (i a).val < win0_8.index t a * S1x256x64.size a + S1x256x64.size a := by
  show i ∈ ((View.whole main_v1).slice (win0_8.rect t)).set ↔ _
  rw [View.set_slice_whole, Rect.mem_set_unit]
  exact Iff.rfl

/-- Every index of the array is in some point's block: (g, n, o) in the block of graph g, tile n / 256. -/
theorem covered8 (i : S32x2048x64.Idx) :
    ∃ t : Fin cfg0.N, (cfg0.win 8).flush t = true ∧ i ∈ ((cfg0.win 8).blk t).view.set := by
  have hi0 : (i 0).val < 32 := (i 0).isLt
  have hi1 : (i 1).val < 2048 := (i 1).isLt
  have hi2 : (i 2).val < 64 := (i 2).isLt
  obtain ⟨t, ht⟩ := idx_onto8 ⟨(i 0).val, hi0⟩ ⟨(i 1).val / 256, by omega⟩
  have q0 : win0_8.index t (0 : Fin 3) = (i 0).val := congrFun ht 0
  have q1 : win0_8.index t (1 : Fin 3) = (i 1).val / 256 := congrFun ht 1
  have q2 : win0_8.index t (2 : Fin 3) = 0 := congrFun ht 2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 256 ≤ (i 1).val ∧ (i 1).val < win0_8.index t (1 : Fin 3) * 256 + 256; omega
  | ⟨2, _⟩ => show win0_8.index t (2 : Fin 3) * 64 ≤ (i 2).val ∧ (i 2).val < win0_8.index t (2 : Fin 3) * 64 + 64; omega

/-- The result array after the last point. -/
theorem final8 (c : Dev nD) : (dats m 0 c).arrAt 8 cfg0.N
    = gcnResultArr (V m c main_v0) (V m c main_arg1) (V m c main_arg2) (V m c main_arg3) (V m c main_arg4)
        (V m c main_arg5) (V m c main_arg6) :=
  (dats m 0 c).arrAt_eq_of_cover 8 _ (fun t _ => flushed8_eq m c t) covered8

/-- The result array after the last point, at graph g, node n, output feature o. -/
theorem final8_apply (c : Dev nD) (g : Fin 32) (n : Fin 2048) (o : Fin 64) :
    (dats m 0 c).arrAt 8 cfg0.N (ValueIdx.ix3 g n o)
      = Cert.GcnSpec.gcnRow (fun f => V m c main_v0 (ValueIdx.ix3 g n f)) (fun mm f => V m c main_v0 (ValueIdx.ix3 g mm f))
          (fun h f => V m c main_arg1 (ValueIdx.ix2 h f)) (fun h => V m c main_arg2 (ValueIdx.ix1 h))
          (fun h f => V m c main_arg3 (ValueIdx.ix2 h f)) (fun h => V m c main_arg4 (ValueIdx.ix1 h))
          (fun h f => V m c main_arg5 (ValueIdx.ix2 h f)) (fun h => V m c main_arg6 (ValueIdx.ix1 h)) o :=
  congrFun (final8 m c) (ValueIdx.ix3 g n o)

end Cert.KernelIdeal.Fr

end
-- ==== Proof.Reshape.lean ====
/- The program's two reshapes read at an index, at any float instance.

   The first reshape merges the two leading axes of a [4, 8, 2048, 64] array into one axis of
   a [32, 2048, 64] array; the last reshape splits that axis again. A reshape keeps every
   element's row-major position, and the row-major position of (b, c, n, f) in [4, 8, 2048, 64],
   ((b * 8 + c) * 2048 + n) * 64 + f, is that of (b * 8 + c, n, f) in [32, 2048, 64]. -/
import proofs.«176366_j30863634989345_1_alg».proof.Proof.Gen.KernelIdeal.Launch
import Idealize.ShloMosaic.Lib.StableHlo.Run
import Idealize.ShloMosaic.Lib.Pipeline.Value
import Idealize.ShloMosaic.Lib.ValueIdx

namespace Cert.KernelIdeal.Fr

open Cert.KernelIdeal Cert.KernelIdeal.Gen Idealize.ShloMosaic Idealize.ShloMosaic.TcCoe Idealize.ShloMosaic.ValueIdx

variable {F : FTy → Type} [FloatOps F]

/-- Merging the two leading axes: entry (8 b + c, n, f) of the reshaped array is entry (b, c, n, f) of the operand. -/
theorem shapeCast_merge_apply {α : Type} (x : S4x8x2048x64.Idx → α) (h : S4x8x2048x64.ShapeCasts S32x2048x64)
    (b : Fin 4) (c' : Fin 8) (n : Fin 2048) (f : Fin 64) (hbc : b.val * 8 + c'.val < 32) :
    shapeCast S32x2048x64 x h (ix3 (⟨b.val * 8 + c'.val, hbc⟩ : Fin 32) n f) = x (ix4 b c' n f) := by
  refine shapeCast_apply x h _ _ ?_
  rw [Shape.rowMajor_val_three, Shape.rowMajor_val_four]
  rfl

/-- Splitting the leading axis: entry (b, c, n, o) of the reshaped array is entry (8 b + c, n, o) of the operand. -/
theorem shapeCast_split_apply {α : Type} (x : S32x2048x64.Idx → α) (h : S32x2048x64.ShapeCasts S4x8x2048x64)
    (b : Fin 4) (c' : Fin 8) (n : Fin 2048) (o : Fin 64) (hbc : b.val * 8 + c'.val < 32) :
    shapeCast S4x8x2048x64 x h (ix4 b c' n o) = x (ix3 (⟨b.val * 8 + c'.val, hbc⟩ : Fin 32) n o) := by
  refine shapeCast_apply x h _ _ ?_
  rw [Shape.rowMajor_val_three, Shape.rowMajor_val_four]
  rfl

/-- After the first reshape, entry (8 b + c, n, f) of its result is entry (b, c, n, f) of the argument. -/
theorem reshape_in_apply (W : Valuation τ sig (Elt F)) (b : Fin 4) (c' : Fin 8) (n : Fin 2048) (f : Fin 64) :
    (StableHlo.after (hostOps0 (F := F)) W main_v0 : S32x2048x64.Idx → Elt F .f32)
        (ix3 (⟨b.val * 8 + c'.val, by omega⟩ : Fin 32) n f)
      = (W main_arg0 : S4x8x2048x64.Idx → Elt F .f32) (ix4 b c' n f) := by
  have e : (StableHlo.after (hostOps0 (F := F)) W main_v0 : S32x2048x64.Idx → Elt F .f32)
      = shapeCast S32x2048x64 (W main_arg0 : S4x8x2048x64.Idx → Elt F .f32) shapeCasts_S4x8x2048x64_S32x2048x64 := by
    show StableHlo.after hostOps0 W (Proc.devRef .tc main_v0) = _
    after_results
    rfl
  rw [e]
  exact shapeCast_merge_apply _ _ b c' n f _

/-- After the last reshape, entry (b, c, n, o) of its result is entry (8 b + c, n, o) of its operand. -/
theorem reshape_out_apply (W : Valuation τ sig (Elt F)) (b : Fin 4) (c' : Fin 8) (n : Fin 2048) (o : Fin 64) :
    (StableHlo.after (hostOps1 (F := F)) W main_v2 : S4x8x2048x64.Idx → Elt F .f32) (ix4 b c' n o)
      = (W main_v1 : S32x2048x64.Idx → Elt F .f32) (ix3 (⟨b.val * 8 + c'.val, by omega⟩ : Fin 32) n o) := by
  have e : (StableHlo.after (hostOps1 (F := F)) W main_v2 : S4x8x2048x64.Idx → Elt F .f32)
      = shapeCast S4x8x2048x64 (W main_v1 : S32x2048x64.Idx → Elt F .f32) shapeCasts_S32x2048x64_S4x8x2048x64 := by
    show StableHlo.after hostOps1 W (Proc.devRef .tc main_v2) = _
    after_results
    rfl
  rw [e]
  exact shapeCast_split_apply _ _ b c' n o _

end Cert.KernelIdeal.Fr
-- ==== Proof.RefValue.lean ====
/-
  The reference program's result, read at one index.

  For graph (b, c) and node n the reference computes the node's first embedding, every node's second embedding, the
  rectified inner products of the first with each of the second, the features propagated over those weights, and the
  output projection. Read at an index, stage by stage, each is the corresponding function of the per-row specification:
  an affine layer's entry, the adjacency weight of a pair of nodes, a propagated feature, an output entry. Both sides are
  the same sums with the same order of factors, so no algebraic law is used: each stage is read through its index form,
  the index functions are evaluated at explicit coordinates, and the two sides then agree by definition.
-/
import proofs.«176366_j30863634989345_1_alg».proof.Proof.Gen.ReferenceIdeal.Read
import proofs.«176366_j30863634989345_1_alg».proof.Proof.Spec

noncomputable section

namespace Cert.ReferenceIdeal.RefValue

open Cert.ReferenceIdeal Cert.ReferenceIdeal.Read Idealize.ShloMosaic Idealize.ShloMosaic.ValueIdx Cert.GcnSpec

/-! ## The index functions at explicit coordinates

Each contraction reads its left and right operands at indices computed from the result's index and the summed position;
each broadcast bias is read at the result's last coordinate. At an index given by its coordinates these are again indices
given by coordinates. -/

/-- First layer: the features are read at the same graph and node, at the summed feature. -/
theorem lidx_v0_ix (b : Fin 4) (c : Fin 8) (n : Fin 2048) (h : Fin 64) (k : Fin 64) :
    lidx_main_v0 (ix4 b c n h) k = ix4 b c n k := by
  funext a; match a with | ⟨0, _⟩ => rfl | ⟨1, _⟩ => rfl | ⟨2, _⟩ => rfl | ⟨3, _⟩ => rfl

/-- First layer: the weights are read at the entry's row and the summed feature's column. -/
theorem ridx_v0_ix (b : Fin 4) (c : Fin 8) (n : Fin 2048) (h : Fin 64) (k : Fin 64) :
    ridx_main_v0 (ix4 b c n h) k = ix2 h k := by
  funext a; match a with | ⟨0, _⟩ => rfl | ⟨1, _⟩ => rfl

/-- First layer: the broadcast bias is read at the entry. -/
theorem bias_v2_ix (b : Fin 4) (c : Fin 8) (n : Fin 2048) (h : Fin 64) :
    idx_main_v1 (idx_main_v2 (ix4 b c n h)) = ix1 h := by
  funext a; match a with | ⟨0, _⟩ => rfl

/-- Second layer: the features are read at the same graph and node, at the summed feature. -/
theorem lidx_v4_ix (b : Fin 4) (c : Fin 8) (n : Fin 2048) (h : Fin 64) (k : Fin 64) :
    lidx_main_v4 (ix4 b c n h) k = ix4 b c n k := by
  funext a; match a with | ⟨0, _⟩ => rfl | ⟨1, _⟩ => rfl | ⟨2, _⟩ => rfl | ⟨3, _⟩ => rfl

/-- Second layer: the weights are read at the entry's row and the summed feature's column. -/
theorem ridx_v4_ix (b : Fin 4) (c : Fin 8) (n : Fin 2048) (h : Fin 64) (k : Fin 64) :
    ridx_main_v4 (ix4 b c n h) k = ix2 h k := by
  funext a; match a with | ⟨0, _⟩ => rfl | ⟨1, _⟩ => rfl

/-- Second layer: the broadcast bias is read at the entry. -/
theorem bias_v6_ix (b : Fin 4) (c : Fin 8) (n : Fin 2048) (h : Fin 64) :
    idx_main_v5 (idx_main_v6 (ix4 b c n h)) = ix1 h := by
  funext a; match a with | ⟨0, _⟩ => rfl

/-- Inner products: the first embedding is read at the query node `n`, at the summed entry. -/
theorem lidx_v8_ix (b : Fin 4) (c : Fin 8) (n : Fin 2048) (m : Fin 2048) (k : Fin 64) :
    lidx_main_v8 (ix4 b c n m) k = ix4 b c n k := by
  funext a; match a with | ⟨0, _⟩ => rfl | ⟨1, _⟩ => rfl | ⟨2, _⟩ => rfl | ⟨3, _⟩ => rfl

/-- Inner products: the second embedding is read at the other node `m`, at the summed entry. -/
theorem ridx_v8_ix (b : Fin 4) (c : Fin 8) (n : Fin 2048) (m : Fin 2048) (k : Fin 64) :
    ridx_main_v8 (ix4 b c n m) k = ix4 b c m k := by
  funext a; match a with | ⟨0, _⟩ => rfl | ⟨1, _⟩ => rfl | ⟨2, _⟩ => rfl | ⟨3, _⟩ => rfl

/-- Propagation: the adjacency weights are read at the query node `n` and the summed node. -/
theorem lidx_v10_ix (b : Fin 4) (c : Fin 8) (n : Fin 2048) (f : Fin 64) (k : Fin 2048) :
    lidx_main_v10 (ix4 b c n f) k = ix4 b c n k := by
  funext a; match a with | ⟨0, _⟩ => rfl | ⟨1, _⟩ => rfl | ⟨2, _⟩ => rfl | ⟨3, _⟩ => rfl

/-- Propagation: the features are read at the summed node, at the propagated feature. -/
theorem ridx_v10_ix (b : Fin 4) (c : Fin 8) (n : Fin 2048) (f : Fin 64) (k : Fin 2048) :
    ridx_main_v10 (ix4 b c n f) k = ix4 b c k f := by
  funext a; match a with | ⟨0, _⟩ => rfl | ⟨1, _⟩ => rfl | ⟨2, _⟩ => rfl | ⟨3, _⟩ => rfl

/-- Output layer: the propagated features are read at the same graph and node, at the summed feature. -/
theorem lidx_v11_ix (b : Fin 4) (c : Fin 8) (n : Fin 2048) (o : Fin 64) (k : Fin 64) :
    lidx_main_v11 (ix4 b c n o) k = ix4 b c n k := by
  funext a; match a with | ⟨0, _⟩ => rfl | ⟨1, _⟩ => rfl | ⟨2, _⟩ => rfl | ⟨3, _⟩ => rfl

/-- Output layer: the weights are read at the output's row and the summed feature's column. -/
theorem ridx_v11_ix (b : Fin 4) (c : Fin 8) (n : Fin 2048) (o : Fin 64) (k : Fin 64) :
    ridx_main_v11 (ix4 b c n o) k = ix2 o k := by
  funext a; match a with | ⟨0, _⟩ => rfl | ⟨1, _⟩ => rfl

/-- Output layer: the broadcast bias is read at the output entry. -/
theorem bias_v13_ix (b : Fin 4) (c : Fin 8) (n : Fin 2048) (o : Fin 64) :
    idx_main_v12 (idx_main_v13 (ix4 b c n o)) = ix1 o := by
  funext a; match a with | ⟨0, _⟩ => rfl

/-! ## The stages at an index -/

/-- The first embedding of node `n` of graph `(b, c)`, entry `h`: the first affine layer on the node's features. -/
theorem e1_apply (x : (⟨S4x8x2048x64, .f32⟩ : BufTy).Contents (Elt Ideal)) (W1 : (⟨S64x64, .f32⟩ : BufTy).Contents (Elt Ideal))
    (b1 : (⟨S64, .f32⟩ : BufTy).Contents (Elt Ideal)) (b : Fin 4) (c : Fin 8) (n : Fin 2048) (h : Fin 64) :
    val_main_v3 (F := Ideal) x W1 b1 (ix4 b c n h)
      = lin (fun f => x (ix4 b c n f)) (fun h f => W1 (ix2 h f)) (fun h => b1 (ix1 h)) h := by
  rw [val_main_v3_apply, val_main_v0_apply, val_main_v2_apply, val_main_v1_apply]
  simp only [lidx_v0_ix, ridx_v0_ix, bias_v2_ix, Ideal.addf_def]
  rfl

/-- The second embedding of node `m` of graph `(b, c)`, entry `h`: the second affine layer on the node's features. -/
theorem e2_apply (x : (⟨S4x8x2048x64, .f32⟩ : BufTy).Contents (Elt Ideal)) (W2 : (⟨S64x64, .f32⟩ : BufTy).Contents (Elt Ideal))
    (b2 : (⟨S64, .f32⟩ : BufTy).Contents (Elt Ideal)) (b : Fin 4) (c : Fin 8) (m : Fin 2048) (h : Fin 64) :
    val_main_v7 (F := Ideal) x W2 b2 (ix4 b c m h)
      = lin (fun f => x (ix4 b c m f)) (fun h f => W2 (ix2 h f)) (fun h => b2 (ix1 h)) h := by
  rw [val_main_v7_apply, val_main_v4_apply, val_main_v6_apply, val_main_v5_apply]
  simp only [lidx_v4_ix, ridx_v4_ix, bias_v6_ix, Ideal.addf_def]
  rfl

/-- The rectified inner product of node `n`'s first embedding with node `m`'s second embedding: the adjacency weight
    of the pair in graph `(b, c)`. The rectifier's constant is the zero word, which is the real number zero. -/
theorem adj_apply (x : (⟨S4x8x2048x64, .f32⟩ : BufTy).Contents (Elt Ideal)) (W1 : (⟨S64x64, .f32⟩ : BufTy).Contents (Elt Ideal))
    (b1 : (⟨S64, .f32⟩ : BufTy).Contents (Elt Ideal)) (W2 : (⟨S64x64, .f32⟩ : BufTy).Contents (Elt Ideal))
    (b2 : (⟨S64, .f32⟩ : BufTy).Contents (Elt Ideal)) (b : Fin 4) (c : Fin 8) (n : Fin 2048) (m : Fin 2048) :
    val_main_v9 (F := Ideal) x W1 b1 W2 b2 (ix4 b c n m)
      = adj (fun f => x (ix4 b c n f)) (fun m f => x (ix4 b c m f))
          (fun h f => W1 (ix2 h f)) (fun h => b1 (ix1 h)) (fun h f => W2 (ix2 h f)) (fun h => b2 (ix1 h)) m := by
  rw [val_main_v9_apply, val_main_v8_apply, val_main_call0_v0_apply, val_main_call0_cst_apply]
  simp only [lidx_v8_ix, ridx_v8_ix, e1_apply, e2_apply, Ideal.maximumf_def, Ideal.ofBits_def, Ideal.ofBits_zero_f32]
  rfl

/-- Feature `f` propagated to node `n` of graph `(b, c)`: every node's feature weighted by its adjacency to `n`. -/
theorem prop_apply (x : (⟨S4x8x2048x64, .f32⟩ : BufTy).Contents (Elt Ideal)) (W1 : (⟨S64x64, .f32⟩ : BufTy).Contents (Elt Ideal))
    (b1 : (⟨S64, .f32⟩ : BufTy).Contents (Elt Ideal)) (W2 : (⟨S64x64, .f32⟩ : BufTy).Contents (Elt Ideal))
    (b2 : (⟨S64, .f32⟩ : BufTy).Contents (Elt Ideal)) (b : Fin 4) (c : Fin 8) (n : Fin 2048) (f : Fin 64) :
    val_main_v10 (F := Ideal) x W1 b1 W2 b2 (ix4 b c n f)
      = prop (fun f => x (ix4 b c n f)) (fun m f => x (ix4 b c m f))
          (fun h f => W1 (ix2 h f)) (fun h => b1 (ix1 h)) (fun h f => W2 (ix2 h f)) (fun h => b2 (ix1 h)) f := by
  rw [val_main_v10_apply]
  simp only [lidx_v10_ix, ridx_v10_ix, adj_apply]
  rfl

/-! ## The result at an index -/

/-- The reference's result at graph `(b, c)`, node `n`, output `o` is the specification's row function of the
    node's features, the graph's features and the three layers' weights and biases. -/
theorem ref_apply (x : (⟨S4x8x2048x64, .f32⟩ : BufTy).Contents (Elt Ideal)) (W1 : (⟨S64x64, .f32⟩ : BufTy).Contents (Elt Ideal))
    (b1 : (⟨S64, .f32⟩ : BufTy).Contents (Elt Ideal)) (W2 : (⟨S64x64, .f32⟩ : BufTy).Contents (Elt Ideal))
    (b2 : (⟨S64, .f32⟩ : BufTy).Contents (Elt Ideal)) (W3 : (⟨S64x64, .f32⟩ : BufTy).Contents (Elt Ideal))
    (b3 : (⟨S64, .f32⟩ : BufTy).Contents (Elt Ideal))
    (b : Fin 4) (c : Fin 8) (n : Fin 2048) (o : Fin 64) :
    Cert.ReferenceIdeal.Read.val_main_v14 (F := Ideal) x W1 b1 W2 b2 W3 b3 (ValueIdx.ix4 b c n o)
      = Cert.GcnSpec.gcnRow (fun f => x (ValueIdx.ix4 b c n f)) (fun m f => x (ValueIdx.ix4 b c m f))
          (fun h f => W1 (ValueIdx.ix2 h f)) (fun h => b1 (ValueIdx.ix1 h)) (fun h f => W2 (ValueIdx.ix2 h f)) (fun h => b2 (ValueIdx.ix1 h))
          (fun h f => W3 (ValueIdx.ix2 h f)) (fun h => b3 (ValueIdx.ix1 h)) o := by
  rw [val_main_v14_apply, val_main_v11_apply, val_main_v13_apply, val_main_v12_apply]
  simp only [lidx_v11_ix, ridx_v11_ix, bias_v13_ix, prop_apply, Ideal.addf_def]
  rfl

end Cert.ReferenceIdeal.RefValue

end
-- ==== Proof.Bridge.lean ====
/-
  The two programs' results are one function of the arguments.

  The kernel's program ends with its result buffer at the second reshape of the region's result array. Read at an
  index (b, c', n, o) of [4, 8, 2048, 64], that is the region's array at (8·b + c', n, o), which the blocks written back
  make `gcnRow` of the reshaped input's graph 8·b + c' and of the six parameters; and the reshaped input at
  (8·b + c', m, f) is the input at (b, c', m, f). The reference's result at (b, c', n, o) is `gcnRow` of the input's
  graph (b, c') and of the same parameters. So the two results agree at every index.
-/
import proofs.«176366_j30863634989345_1_alg».proof.Proof.LaunchIdeal
import proofs.«176366_j30863634989345_1_alg».proof.Proof.ResultIdeal
import proofs.«176366_j30863634989345_1_alg».proof.Proof.Reshape
import proofs.«176366_j30863634989345_1_alg».proof.Proof.RefValue

noncomputable section

namespace Cert.KernelIdeal.Fr

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- A parameter's array is as launched when the region is entered: the first reshape writes the reshaped input only. -/
theorem V_param (c : Dev nD) (b : Ref sig .tc) (hb : b ≠ main_v0) : V m c b = m ((c : Thread nD τ).loc b) := keep0 b hb _

/-- The kernel program's result is the reference's function of the launch contents of the seven arguments. -/
theorem result_eq (c : Dev nD) :
    StableHlo.after hostOps1 (V₁ m c) main_v2
      = Cert.ReferenceIdeal.Read.val_main_v14 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨b, c', n, o, rfl⟩ : ∃ (b : Fin 4) (c' : Fin 8) (n : Fin 2048) (o : Fin 64), i = ix4 b c' n o := ⟨i 0, i 1, i 2, i 3, eq_ix4 i⟩
  rw [Cert.ReferenceIdeal.RefValue.ref_apply]
  refine (reshape_out_apply (V₁ m c) b c' n o).trans ?_
  rw [show V₁ m c (Proc.devRef .tc main_v1) = res m c from Function.update_self _ _ _]
  refine (final8_apply m c _ n o).trans ?_
  simp only [V_param m c main_arg1 (by decide), V_param m c main_arg2 (by decide), V_param m c main_arg3 (by decide),
    V_param m c main_arg4 (by decide), V_param m c main_arg5 (by decide), V_param m c main_arg6 (by decide)]
  have hx : ∀ (mm : Fin 2048) (f : Fin 64), V m c main_v0 (ix3 (⟨b.val * 8 + c'.val, by omega⟩ : Fin 32) mm f) = m ((c : Thread nD τ).loc main_arg0) (ix4 b c' mm f) :=
    fun mm f => reshape_in_apply (V₀ m c) b c' mm f
  simp only [hx]

end Cert.KernelIdeal.Fr

end
-- ==== Proof.lean ====
/-
  The certificate of a fused graph layer against its jnp reference, over the extended reals.

  For each of the 32 graphs x[g] (2048 nodes, 64 features) both programs compute
      e1 = x·W1ᵀ + b1,   e2 = x·W2ᵀ + b2,   adj = max (e1·e2ᵀ) 0,   h = adj·x,   out = h·W3ᵀ + b3.
  The reference does so on the whole [4, 8, 2048, 64] input with five dot_generals; the kernel on the input reshaped to
  [32, 2048, 64], one tile of 256 query nodes per grid point, handed the graph through two windows of one array (the
  whole graph, and the query tile), with bf16 casts before each matrix product. At the ideal instance a cast is the
  identity and each matrix product is the plain sum over the contracted axis, and both programs write every product
  with the same left and right factors: both results are, index by index, the one function `Cert.GcnSpec.gcnRow` of the
  arguments, and no algebraic law (nor the finiteness of the inputs) is needed to identify them.

  The frames. The kernel's program has no generated frame (two of its windows stage one array). Its run is proved
  here from the library's rule for a program given as a list of items — reshape, region, reshape — at any float
  instance, once for the text the two printed programs share: the region holds the shared array at one half of the full
  share per window, cut at the region's entry and joined again at its exit, and its body is run symbolically once, at
  a generic grid point. That one run gives both frame conjuncts and the kernel's side of the value claim. The
  reference's frame is its generated run with the result dropped. The ideal pass rewrote nothing, so `preserves` is
  `True`.
-/
import proofs.«176366_j30863634989345_1_alg».proof.Defs
import proofs.«176366_j30863634989345_1_alg».proof.Proof.Gen.Kernel
import proofs.«176366_j30863634989345_1_alg».proof.Proof.Gen.KernelIdeal
import proofs.«176366_j30863634989345_1_alg».proof.Proof.Gen.ReferenceIdeal
import proofs.«176366_j30863634989345_1_alg».proof.Proof.Gen.Pre_finite_inputs
import proofs.«176366_j30863634989345_1_alg».proof.Proof.Gen.ReferenceIdeal.Run
import proofs.«176366_j30863634989345_1_alg».proof.Proof.Gen.ReferenceIdeal.Read
import proofs.«176366_j30863634989345_1_alg».proof.Proof.LaunchBits
import proofs.«176366_j30863634989345_1_alg».proof.Proof.Bridge
import Idealize.ShloMosaic.Adequacy
import Idealize.ShloMosaic.Init

noncomputable section

namespace Cert.Proof

open Idealize.ShloMosaic Idealize.SL.Sem

/-- The word-level program runs and leaves its arguments as they were: its run with the result dropped. -/
theorem frame_kernel : Cert.frame_Kernel := fun m ρ _ =>
  (θ_run Cert.Kernel.defs _ _).mono (fun _ h c => (h c).2) (Cert.Kernel.Fr.run_main (F := Bits) m ρ)

/-- The same for its idealization. -/
theorem frame_kernelIdeal : Cert.frame_KernelIdeal := fun m ρ _ =>
  (θ_run Cert.KernelIdeal.defs _ _).mono (fun _ h c => (h c).2) (Cert.KernelIdeal.Fr.run_main (F := Ideal) m ρ)

/-- The reference runs and leaves its arguments as they were: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result: the kernel program's
    result, which is the reference's function of the arguments (`result_eq`). -/
theorem algebraic : Cert.algebraic_KernelIdeal_ReferenceIdeal := by
  intro m ρ m' ρ' _ hagree
  refine ⟨fun c => StableHlo.after Cert.KernelIdeal.Gen.hostOps1 (Cert.KernelIdeal.Fr.V₁ m c) (Proc.devRef .tc Cert.KernelIdeal.main_v2),
    Cert.KernelIdeal.Fr.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1, (hagree c).2.2.2.2.2.2]
  exact (Cert.ReferenceIdeal.Read.val_main_v14_eq _ _ _ _ _ _ _).trans (Cert.KernelIdeal.Fr.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
